-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S100000 : Shape := ⟨1, ![100000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel

variable [Facts]

def fn {F : FTy → Type} [FloatOps F] (main_arg0 : FVec F S100000x2 .f32) (main_arg1 : IVec S2x3200000 32) (main_arg2 : IVec S100000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  main_v3
-- ==== Kernel.lean ====
abbrev S100000x2 : Shape := ⟨2, ![100000, 2]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x1 : Shape := ⟨2, ![100000, 1]⟩
abbrev S100000x3 : Shape := ⟨2, ![100000, 3]⟩
abbrev S_ : Shape := ⟨0, ![]⟩
abbrev S3200000x1 : Shape := ⟨2, ![3200000, 1]⟩
abbrev S3200000x3 : Shape := ⟨2, ![3200000, 3]⟩
abbrev S3200000x2 : Shape := ⟨2, ![3200000, 2]⟩
abbrev S3x3200000 : Shape := ⟨2, ![3, 3200000]⟩
abbrev S2x2x128 : Shape := ⟨3, ![2, 2, 128]⟩
abbrev S3x64000 : Shape := ⟨2, ![3, 64000]⟩
abbrev S1x2x128 : Shape := ⟨3, ![1, 2, 128]⟩
abbrev S2x128 : Shape := ⟨2, ![2, 128]⟩
abbrev S128x6400 : Shape := ⟨2, ![128, 6400]⟩
abbrev S1x6400 : Shape := ⟨2, ![1, 6400]⟩
abbrev S2x6400 : Shape := ⟨2, ![2, 6400]⟩
abbrev S1x128 : Shape := ⟨2, ![1, 128]⟩
abbrev S128 : Shape := ⟨1, ![128]⟩

abbrev nBuf : Space → Nat
  | .hbm => 57
  | .vmem => 4
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S100000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S100000, .f32⟩
  | .hbm, ⟨8, _⟩ => ⟨S100000x1, .f32⟩
  | .hbm, ⟨9, _⟩ => ⟨S100000x3, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x3, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x2, .f32⟩
  | .hbm, ⟨28, _⟩ => ⟨S3200000x2, .f32⟩
  | .hbm, ⟨29, _⟩ => ⟨S3200000x2, .f32⟩
  | .hbm, ⟨30, _⟩ => ⟨S3200000x1, .f32⟩
  | .hbm, ⟨31, _⟩ => ⟨S3200000, .f32⟩
  | .hbm, ⟨32, _⟩ => ⟨S3200000x1, .f32⟩
  | .hbm, ⟨33, _⟩ => ⟨S3200000, .f32⟩
  | .hbm, ⟨34, _⟩ => ⟨S3200000x1, .f32⟩
  | .hbm, ⟨35, _⟩ => ⟨S3200000, .f32⟩
  | .hbm, ⟨36, _⟩ => ⟨S3200000, .i32⟩
  | .hbm, ⟨37, _⟩ => ⟨S3200000, .f32⟩
  | .hbm, ⟨38, _⟩ => ⟨S1x3200000, .f32⟩
  | .hbm, ⟨39, _⟩ => ⟨S1x3200000, .f32⟩
  | .hbm, ⟨40, _⟩ => ⟨S1x3200000, .f32⟩
  | .hbm, ⟨41, _⟩ => ⟨S3x3200000, .f32⟩
  | .hbm, ⟨42, _⟩ => ⟨S2x2x128, .f32⟩
  | .hbm, ⟨43, _⟩ => ⟨S_, .f32⟩
  | .hbm, ⟨44, _⟩ => ⟨S2x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S3x64000, .f32⟩
  | .local _ .vmem, ⟨1, _⟩ => ⟨S3x64000, .f32⟩
  | .local _ .vmem, ⟨2, _⟩ => ⟨S1x2x128, .f32⟩
  | .local _ .vmem, ⟨3, _⟩ => ⟨S1x2x128, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 25], ![false, false]⟩

@[reducible] def k0_t1_loop : Scf.Loop 32 :=
  let c0_i32_1 : BitVec 32 := 0#32
  let c10_i32 : BitVec 32 := 10#32
  let v5 : BitVec 32 := Scalar.addi c0_i32_1 c10_i32
  let c1_i32 : BitVec 32 := 1#32
  ⟨c0_i32_1, v5, c1_i32⟩
def k0_mult1 (k0_t1 : Fin k0_t1_loop.trips) : BitVec 32 :=
  let c0_i32_1 : BitVec 32 := 0#32
  let c1_i32 : BitVec 32 := 1#32
  let arg4 : BitVec 32 := Scf.iv c0_i32_1 c1_i32 k0_t1
  let c6400_i32 : BitVec 32 := 6400#32
  let v13 : BitVec 32 := Scalar.muli arg4 c6400_i32
  v13
def k0_off1 (k0_t1 : Fin k0_t1_loop.trips) : Fin 2 → Nat :=
  let c0_8 : Index := 0#32
  let c0_i32_1 : BitVec 32 := 0#32
  let c1_i32 : BitVec 32 := 1#32
  let arg4 : BitVec 32 := Scf.iv c0_i32_1 c1_i32 k0_t1
  let c6400_i32 : BitVec 32 := 6400#32
  let v13 : BitVec 32 := Scalar.muli arg4 c6400_i32
  let v14 : BitVec 32 := v13
  let v15 : Index := Scalar.indexCast v14
  ![0, v15.toNat]
def k0_off2 (k0_t1 : Fin k0_t1_loop.trips) : Fin 2 → Nat :=
  let c1 : Index := 1#32
  let c0_i32_1 : BitVec 32 := 0#32
  let c1_i32 : BitVec 32 := 1#32
  let arg4 : BitVec 32 := Scf.iv c0_i32_1 c1_i32 k0_t1
  let c6400_i32 : BitVec 32 := 6400#32
  let v13 : BitVec 32 := Scalar.muli arg4 c6400_i32
  let v14 : BitVec 32 := v13
  let v18 : Index := Scalar.indexCast v14
  ![1, v18.toNat]
def k0_off3 (k0_t1 : Fin k0_t1_loop.trips) : Fin 2 → Nat :=
  let c2 : Index := 2#32
  let c0_i32_1 : BitVec 32 := 0#32
  let c1_i32 : BitVec 32 := 1#32
  let arg4 : BitVec 32 := Scf.iv c0_i32_1 c1_i32 k0_t1
  let c6400_i32 : BitVec 32 := 6400#32
  let v13 : BitVec 32 := Scalar.muli arg4 c6400_i32
  let v14 : BitVec 32 := v13
  let v21 : Index := Scalar.indexCast v14
  ![2, v21.toNat]
def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S100000_S100000x1_0 : S100000.BroadcastsInDim S100000x1 (![0] : Fin 1 → Fin S100000x1.rank)
  concatenates_S100000x2_S100000x1_S100000x3_d1 : Shape.Concatenates [S100000x2, S100000x1] S100000x3 1
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S3200000x3_S3200000x2_0_0 : S3200000x3.Slices ![0, 0] S3200000x2
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  slices_S3200000x3_S3200000x1_0_2 : S3200000x3.Slices ![0, 2] S3200000x1
  bcast_S3200000_S1x3200000_1 : S3200000.BroadcastsInDim S1x3200000 (![1] : Fin 1 → Fin S1x3200000.rank)
  concatenates_S1x3200000_S1x3200000_S1x3200000_S3x3200000_d0 : Shape.Concatenates [S1x3200000, S1x3200000, S1x3200000] S3x3200000 0
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  shapeCasts_S2x128_S1x2x128 : S2x128.ShapeCasts S1x2x128
  iota_S128x6400_d0_w32 : S128x6400.Iotas .tc 32 [0]
  h_S1x6400 : 0 < S1x6400.numel
  shapeCasts_S1x6400_S1x6400 : S1x6400.ShapeCasts S1x6400
  concatenates_S1x6400_S1x6400_S2x6400_d0 : Shape.Concatenates [S1x6400, S1x6400] S2x6400 0
  bitsLt_bf16_f32 : FTy.bits .bf16 < FTy.bits .f32
  broadcasts_S1x6400_S128x6400 : S1x6400.Broadcasts S128x6400
  natLt_1_32 : 1 < 32
  reducesTo_S2x2x128_S2x128_d0 : S2x2x128.ReducesTo [0] S2x128
  h_S_ : 0 < S_.numel
  slices_S2x128_S1x128_0_0 : S2x128.Slices ![0, 0] S1x128
  shapeCasts_S1x128_S128 : S1x128.ShapeCasts S128
  slices_S2x128_S1x128_1_0 : S2x128.Slices ![1, 0] S1x128
  bcast_S_S128 : S_.BroadcastsInDim S128 (![] : Fin 0 → Fin S128.rank)
  reducesTo_S128_S_d0 : S128.ReducesTo [0] S_
  gather_S100000x3_S3200000x1_S3200000x3_1_0_n_n_0_1_13_wf : GatherDims.WF S100000x3 S3200000x1 S3200000x3 [1] [0] [] [0] [] 1 ![1, 3]
  gather_S100000x2_S3200000x1_S3200000x2_1_0_n_n_0_1_12_wf : GatherDims.WF S100000x2 S3200000x1 S3200000x2 [1] [0] [] [0] [] 1 ![1, 2]
  dot_S2x6400_S128x6400_S2x128_1_1_0_0_n_n_wf : DotDims.WF S2x6400 S128x6400 S2x128 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x6400.size a ≤ S3x64000.size a
  k0_off2_inb : ∀ k0_t1 : Fin k0_t1_loop.trips, ∀ a, (k0_off2 k0_t1) a + S1x6400.size a ≤ S3x64000.size a
  k0_off3_inb : ∀ k0_t1 : Fin k0_t1_loop.trips, ∀ a, (k0_off3 k0_t1) a + S1x6400.size a ≤ S3x64000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64000.size a ≤ S3x3200000.size a
  hwx0_0 : ∀ i : grid0.Coords, EltTy.bits .f32 = 32 ∨ (Rect.block (s := S3x3200000) S3x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128.size a ≤ S2x2x128.size a
  hwx0_1 : ∀ i : grid0.Coords, EltTy.bits .f32 = 32 ∨ (Rect.block (s := S2x2x128) S1x2x128.size (cc0_transform_1 i) (hinb0_1 i)).WholeWords (EltTy.packing .f32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S2x6400_S128x6400_S2x128_1_1_0_0_n_n : DotDims S2x6400 S128x6400 S2x128 where
  lhsContracting := [1]
  rhsContracting := [1]
  lhsNonContracting := [0]
  rhsNonContracting := [0]
  lhsBatch := []
  rhsBatch := []
  wf := dot_S2x6400_S128x6400_S2x128_1_1_0_0_n_n_wf

abbrev win0_0 : Pipeline.Window sig grid0 :=
  Pipeline.Window.ofSpec (Memref.whole main_v34) S3x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1x2x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x2 : Shape := ⟨2, ![3200000, 2]⟩
abbrev S128 : Shape := ⟨1, ![128]⟩

abbrev nBuf : Space → Nat
  | .hbm => 63
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S100000, .i32⟩
  | .hbm, ⟨3, _⟩ => ⟨S1x3200000, .i32⟩
  | .hbm, ⟨4, _⟩ => ⟨S3200000, .i32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x2, .f32⟩
  | .hbm, ⟨14, _⟩ => ⟨S1x3200000, .i32⟩
  | .hbm, ⟨15, _⟩ => ⟨S3200000, .i32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x2, .f32⟩
  | .hbm, ⟨25, _⟩ => ⟨S3200000x2, .f32⟩
  | .hbm, ⟨26, _⟩ => ⟨S3200000x2, .f32⟩
  | .hbm, ⟨27, _⟩ => ⟨S_, .f32⟩
  | .hbm, ⟨28, _⟩ => ⟨S3200000, .f32⟩
  | .hbm, ⟨29, _⟩ => ⟨S3200000, .f32⟩
  | .hbm, ⟨30, _⟩ => ⟨S_, .f32⟩
  | .hbm, ⟨31, _⟩ => ⟨S3200000, .f32⟩
  | .hbm, ⟨32, _⟩ => ⟨S3200000, .f32⟩
  | .hbm, ⟨33, _⟩ => ⟨S3200000, .f32⟩
  | .hbm, ⟨34, _⟩ => ⟨S1x3200000, .i32⟩
  | .hbm, ⟨35, _⟩ => ⟨S3200000, .i32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .i32⟩
  | .hbm, ⟨45, _⟩ => ⟨S_, .f32⟩
  | .hbm, ⟨46, _⟩ => ⟨S128, .f32⟩
  | .hbm, ⟨47, _⟩ => ⟨S3200000x1, .i32⟩
  | .hbm, ⟨48, _⟩ => ⟨S128, .f32⟩
  | .hbm, ⟨49, _⟩ => ⟨S_, .f32⟩
  | .hbm, ⟨50, _⟩ => ⟨S3200000, .f32⟩
  | .hbm, ⟨51, _⟩ => ⟨S_, .f32⟩
  | .hbm, ⟨52, _⟩ => ⟨S128, .f32⟩
  | .hbm, ⟨53, _⟩ => ⟨S3200000x1, .i32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  reducesTo_S3200000x2_S3200000_d1 : S3200000x2.ReducesTo [1] S3200000
  h_S_ : 0 < S_.numel
  bcast_S_S128 : S_.BroadcastsInDim S128 (![] : Fin 0 → Fin S128.rank)
  reducesTo_S128_S_d0 : S128.ReducesTo [0] S_
  gather_S100000x2_S3200000x1_S3200000x2_1_0_n_n_0_1_12_wf : GatherDims.WF S100000x2 S3200000x1 S3200000x2 [1] [0] [] [0] [] 1 ![1, 2]
  gather_S100000_S3200000x1_S3200000_n_0_n_n_0_1_1_wf : GatherDims.WF S100000 S3200000x1 S3200000 [] [0] [] [0] [] 1 ![1]
  scatter_S128_S3200000x1_S3200000_n_0_0_1_wf : ScatterDims.WF S128 S3200000x1 S3200000 [] [0] [0] 1

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S128_S3200000x1_S3200000_n_0_0_1 : ScatterDims S128 S3200000x1 S3200000 where
  updateWindowDims := []
  insertedWindowDims := [0]
  scatterDimsToOperandDims := [0]
  indexVectorDim := 1
  wf := scatter_S128_S3200000x1_S3200000_n_0_0_1_wf

class Facts : Prop extends Facts₀ where

variable [Facts]
-- ==== Proof.K.FrameKit.lean ====
/-
  The launch side of the frame of the packed-edge scatter-mean program: @main is 39 host lines that gather the
  edge endpoints, difference them and stack (dx, dy, graph id) into one 3 x 3200000 array, the one pipelined
  region over a 2 x 25 grid, and 14 host lines that add the two per-core slabs and average.
  Here: the buffers' contents at the region's entry (the host lines before it applied to the launch memory),
  that no host line writes an argument array, each window's block at a grid point, and the frame claim read
  off a frame run's post.  The branch of the body (first step along the second grid axis or not) is decided
  over the grid in closed form: the point's position is a multiple of 25.
-/
import proofs.«414884_j32220844654986_3_alg».proof.Proof.Gen.Kernel.Launch
import proofs.«414884_j32220844654986_3_alg».proof.Proof.Gen.Kernel.Skeleton
import proofs.«414884_j32220844654986_3_alg».proof.Proof.Gen.Kernel.Points
import proofs.«414884_j32220844654986_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the 39 host lines applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is neither the packed array nor the slab array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The packed input's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- The three argument arrays are staged by no window and written by no host line, so a frame run's post
    leaves them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch -/

/-- The body resets its slab exactly when the second grid coordinate is zero. -/
abbrev cond0_0 (i : grid0.Coords) : Prop := (Scalar.cmpi .ne (Scalar.extui (Scalar.cmpi .eq (BitVec.ofNat 32 (i 1).val) 0#32)) 0#32) = 1#1
/-- Over the 50 points: at positions 0 and 25. -/
theorem hcond0_0 : ∀ t : Fin cfg0.N, cond0_0 (grid0.coords t) ↔ t.val % 25 = 0 :=
  (by decide +kernel : ∀ t : Fin grid0.N, cond0_0 (grid0.coords t) ↔ t.val % 25 = 0)

/-! ## Staging memrefs -/

/-- One staging buffer of the slab window, through which its contents are stated. -/
abbrev VO0_1 : View sig .tc .vmem S1x2x128 .f32 := (Memref.whole cc0_stg1_0 : Memref sig .tc .vmem S1x2x128 .f32).view
/-- Each window's current staging memref at point `t`, and its wholeness. -/
abbrev ms0_0 (t : Fin cfg0.N) : Memref sig .tc .vmem S3x64000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x128 .f32 := win0_1.stage (cfg0.slots t 1)
abbrev hs0_1 (t : Fin cfg0.N) : (ms0_1 t).IsWhole := hstage0_1 ((cfg0.slots t 1).cast nbuf0_1)

end Cert.Kernel.Fr

end
-- ==== Proof.K.RunA.lean ====
/-
  The body of the scatter-mean kernel run once, symbolically, on whole staging buffers, in the case where the
  second grid coordinate is zero: the slab buffer is first overwritten with zeros (whatever it held), then
  the ten-chunk loop's carried 2 x 128 value is added into it.  The pieces the slab buffer ends with are
  found by the run itself; the packed input block is only read.
-/
import proofs.«414884_j32220844654986_3_alg».proof.Proof.K.FrameKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, with the list of pieces (last first) that the slab buffer ends with. -/
noncomputable def kernelRun0_A (c : Dev nD) (i : grid0.Coords) (arg2 : Memref sig .tc .vmem S3x64000 .f32) (harg2 : arg2.IsWhole) (arg3 : Memref sig .tc .vmem S1x2x128 .f32) (harg3 : arg3.IsWhole) (hc0 : cond0_0 i)
    (x0 : Vec F S3x64000 .f32) :
    { L1 : List (View.Piece (Elt F) S1x2x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__edge_var_scatter_mean_kernel i arg2 harg2 arg3 harg3) K } := by
  refine ⟨?_, fun E K => ?run⟩
  case run =>
    simp only [cc0__edge_var_scatter_mean_kernel_eq_skeleton]; unfold cc0__edge_var_scatter_mean_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Fr

end
-- ==== Proof.K.RunB.lean ====
/-
  The body of the scatter-mean kernel run once, symbolically, on whole staging buffers, in the case where the
  second grid coordinate is not zero: the slab buffer holds the running sums left by the point before, and
  the ten-chunk loop's carried 2 x 128 value is added into it.  The pieces the slab buffer ends with are
  found by the run itself; the packed input block is only read.
-/
import proofs.«414884_j32220844654986_3_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, with the list of pieces (last first) that the slab buffer ends with. -/
noncomputable def kernelRun0_B (c : Dev nD) (i : grid0.Coords) (arg2 : Memref sig .tc .vmem S3x64000 .f32) (harg2 : arg2.IsWhole) (arg3 : Memref sig .tc .vmem S1x2x128 .f32) (harg3 : arg3.IsWhole) (hc0 : ¬cond0_0 i)
    (x0 : Vec F S3x64000 .f32) (xo1 : Vec F S1x2x128 .f32) :
    { L1 : List (View.Piece (Elt F) S1x2x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__edge_var_scatter_mean_kernel i arg2 harg2 arg3 harg3) K } := by
  refine ⟨?_, fun E K => ?run⟩
  case run =>
    simp only [cc0__edge_var_scatter_mean_kernel_eq_skeleton]; unfold cc0__edge_var_scatter_mean_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Fr

end
-- ==== Proof.K.Frame.lean ====
/-
  The frame of the scatter-mean program: what the slab window's staging buffer holds after the body at every
  grid point, the pipeline's proof data, the body obligation at a generic point, the run of @main and the frame
  claim.  Along the second grid axis the slab buffer is carried: at a point whose position is a multiple of 25
  the body overwrites it (zeros, then zeros plus the loop's sum); at every other point it adds the loop's sum to
  what the point before left, because the slab window is written back only at positions 24 and 49.
-/
import proofs.«414884_j32220844654986_3_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the resetting case the pieces found by the run tile the slab block. -/
theorem cover0_A_1 (c : Dev nD) (i : grid0.Coords) (arg2 : Memref sig .tc .vmem S3x64000 .f32) (harg2 : arg2.IsWhole) (arg3 : Memref sig .tc .vmem S1x2x128 .f32) (harg3 : arg3.IsWhole) (hc0 : cond0_0 i)
    (x0 : Vec F S3x64000 .f32) (y : S1x2x128.Idx) :
    ∃ pc ∈ (kernelRun0_A c i arg2 harg2 arg3 harg3 hc0 x0).1, y ∈ pc.1.set :=
  View.cover_of_tiledL (kernelRun0_A c i arg2 harg2 arg3 harg3 hc0 x0).1 S1x2x128.size (by sl_kernel_rfl) y

/-- What the resetting case leaves in the slab buffer: its pieces read back. -/
def out0_A_1 (c : Dev nD) (i : grid0.Coords) (arg2 : Memref sig .tc .vmem S3x64000 .f32) (harg2 : arg2.IsWhole) (arg3 : Memref sig .tc .vmem S1x2x128 .f32) (harg3 : arg3.IsWhole) (hc0 : cond0_0 i)
    (x0 : Vec F S3x64000 .f32) : Vec F S1x2x128 .f32 :=
  VO0_1.read (Elt F) (VO0_1.writes (Elt F) VO0_1.junk (kernelRun0_A c i arg2 harg2 arg3 harg3 hc0 x0).1)

/-- In the accumulating case the pieces found by the run tile the slab block. -/
theorem cover0_B_1 (c : Dev nD) (i : grid0.Coords) (arg2 : Memref sig .tc .vmem S3x64000 .f32) (harg2 : arg2.IsWhole) (arg3 : Memref sig .tc .vmem S1x2x128 .f32) (harg3 : arg3.IsWhole) (hc0 : ¬cond0_0 i)
    (x0 : Vec F S3x64000 .f32) (xo1 : Vec F S1x2x128 .f32) (y : S1x2x128.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x2x128.size (by sl_kernel_rfl) y

/-- What the accumulating case leaves in the slab buffer: its pieces read back. -/
def out0_B_1 (c : Dev nD) (i : grid0.Coords) (arg2 : Memref sig .tc .vmem S3x64000 .f32) (harg2 : arg2.IsWhole) (arg3 : Memref sig .tc .vmem S1x2x128 .f32) (harg3 : arg3.IsWhole) (hc0 : ¬cond0_0 i)
    (x0 : Vec F S3x64000 .f32) (xo1 : Vec F S1x2x128 .f32) : Vec F S1x2x128 .f32 :=
  VO0_1.read (Elt F) (VO0_1.writes (Elt F) VO0_1.junk (kernelRun0_B c i arg2 harg2 arg3 harg3 hc0 x0 xo1).1)

/-! ## What the slab buffer holds after each point -/

/-- The running contents of the slab buffer after the body at position `n`: reset at the multiples of 25,
    otherwise built on what position `n - 1` left. -/
def outsAt0 (c : Dev nD) : (n : ℕ) → n < cfg0.N → Vec F S1x2x128 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 25 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

theorem outsAt0_A (c : Dev nD) (t : Fin cfg0.N) (h0 : t.val % 25 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

theorem outsAt0_B (c : Dev nD) (t : Fin cfg0.N) (h0 : ¬t.val % 25 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body the packed input's buffer at its block and the slab's
    at the running contents; nothing owed, full shares, the class invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d

/-- Away from the multiples of 25 the slab buffer still holds what the point before left: it was not written
    back in between. -/
theorem before0_1_B (c : Dev nD) (t : Fin cfg0.N) (h0 : ¬t.val % 25 = 0) (d) :
    (dats m 0 c).before 1 t d = (outsAt0 m c (t.val - 1) (Nat.lt_of_le_of_lt (Nat.sub_le _ _) t.isLt)) := by
  have hN : t.val < 50 := lt_of_lt_of_eq t.isLt (show cfg0.N = 50 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 50 := lt_of_lt_of_eq t.isLt (show cfg0.N = 50 from N_0)
  by_cases h0 : t.val % 25 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the packed array and the slab array end at what the proof
    data computes, every other unscoped buffer at what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.KI.FrameKit.lean ====
/-
  The launch side of the frame of the packed-edge scatter-mean program: @main is 39 host lines that gather the
  edge endpoints, difference them and stack (dx, dy, graph id) into one 3 x 3200000 array, the one pipelined
  region over a 2 x 25 grid, and 14 host lines that add the two per-core slabs and average.
  Here: the buffers' contents at the region's entry (the host lines before it applied to the launch memory),
  that no host line writes an argument array, each window's block at a grid point, and the frame claim read
  off a frame run's post.  The branch of the body (first step along the second grid axis or not) is decided
  over the grid in closed form: the point's position is a multiple of 25.
-/
import proofs.«414884_j32220844654986_3_alg».proof.Proof.Gen.KernelIdeal.Launch
import proofs.«414884_j32220844654986_3_alg».proof.Proof.Gen.KernelIdeal.Skeleton
import proofs.«414884_j32220844654986_3_alg».proof.Proof.Gen.KernelIdeal.Points
import proofs.«414884_j32220844654986_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the 39 host lines applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is neither the packed array nor the slab array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The packed input's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- The three argument arrays are staged by no window and written by no host line, so a frame run's post
    leaves them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch -/

/-- The body resets its slab exactly when the second grid coordinate is zero. -/
abbrev cond0_0 (i : grid0.Coords) : Prop := (Scalar.cmpi .ne (Scalar.extui (Scalar.cmpi .eq (BitVec.ofNat 32 (i 1).val) 0#32)) 0#32) = 1#1
/-- Over the 50 points: at positions 0 and 25. -/
theorem hcond0_0 : ∀ t : Fin cfg0.N, cond0_0 (grid0.coords t) ↔ t.val % 25 = 0 :=
  (by decide +kernel : ∀ t : Fin grid0.N, cond0_0 (grid0.coords t) ↔ t.val % 25 = 0)

/-! ## Staging memrefs -/

/-- One staging buffer of the slab window, through which its contents are stated. -/
abbrev VO0_1 : View sig .tc .vmem S1x2x128 .f32 := (Memref.whole cc0_stg1_0 : Memref sig .tc .vmem S1x2x128 .f32).view
/-- Each window's current staging memref at point `t`, and its wholeness. -/
abbrev ms0_0 (t : Fin cfg0.N) : Memref sig .tc .vmem S3x64000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x128 .f32 := win0_1.stage (cfg0.slots t 1)
abbrev hs0_1 (t : Fin cfg0.N) : (ms0_1 t).IsWhole := hstage0_1 ((cfg0.slots t 1).cast nbuf0_1)

end Cert.KernelIdeal.Fr

end
-- ==== Proof.KI.RunA.lean ====
/-
  The body of the scatter-mean kernel run once, symbolically, on whole staging buffers, in the case where the
  second grid coordinate is zero: the slab buffer is first overwritten with zeros (whatever it held), then
  the ten-chunk loop's carried 2 x 128 value is added into it.  The pieces the slab buffer ends with are
  found by the run itself; the packed input block is only read.
-/
import proofs.«414884_j32220844654986_3_alg».proof.Proof.KI.FrameKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, with the list of pieces (last first) that the slab buffer ends with. -/
noncomputable def kernelRun0_A (c : Dev nD) (i : grid0.Coords) (arg2 : Memref sig .tc .vmem S3x64000 .f32) (harg2 : arg2.IsWhole) (arg3 : Memref sig .tc .vmem S1x2x128 .f32) (harg3 : arg3.IsWhole) (hc0 : cond0_0 i)
    (x0 : Vec F S3x64000 .f32) :
    { L1 : List (View.Piece (Elt F) S1x2x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__edge_var_scatter_mean_kernel i arg2 harg2 arg3 harg3) K } := by
  refine ⟨?_, fun E K => ?run⟩
  case run =>
    simp only [cc0__edge_var_scatter_mean_kernel_eq_skeleton]; unfold cc0__edge_var_scatter_mean_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Fr

end
-- ==== Proof.KI.RunB.lean ====
/-
  The body of the scatter-mean kernel run once, symbolically, on whole staging buffers, in the case where the
  second grid coordinate is not zero: the slab buffer holds the running sums left by the point before, and
  the ten-chunk loop's carried 2 x 128 value is added into it.  The pieces the slab buffer ends with are
  found by the run itself; the packed input block is only read.
-/
import proofs.«414884_j32220844654986_3_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, with the list of pieces (last first) that the slab buffer ends with. -/
noncomputable def kernelRun0_B (c : Dev nD) (i : grid0.Coords) (arg2 : Memref sig .tc .vmem S3x64000 .f32) (harg2 : arg2.IsWhole) (arg3 : Memref sig .tc .vmem S1x2x128 .f32) (harg3 : arg3.IsWhole) (hc0 : ¬cond0_0 i)
    (x0 : Vec F S3x64000 .f32) (xo1 : Vec F S1x2x128 .f32) :
    { L1 : List (View.Piece (Elt F) S1x2x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__edge_var_scatter_mean_kernel i arg2 harg2 arg3 harg3) K } := by
  refine ⟨?_, fun E K => ?run⟩
  case run =>
    simp only [cc0__edge_var_scatter_mean_kernel_eq_skeleton]; unfold cc0__edge_var_scatter_mean_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Fr

end
-- ==== Proof.KI.Frame.lean ====
/-
  The frame of the scatter-mean program: what the slab window's staging buffer holds after the body at every
  grid point, the pipeline's proof data, the body obligation at a generic point, the run of @main and the frame
  claim.  Along the second grid axis the slab buffer is carried: at a point whose position is a multiple of 25
  the body overwrites it (zeros, then zeros plus the loop's sum); at every other point it adds the loop's sum to
  what the point before left, because the slab window is written back only at positions 24 and 49.
-/
import proofs.«414884_j32220844654986_3_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the resetting case the pieces found by the run tile the slab block. -/
theorem cover0_A_1 (c : Dev nD) (i : grid0.Coords) (arg2 : Memref sig .tc .vmem S3x64000 .f32) (harg2 : arg2.IsWhole) (arg3 : Memref sig .tc .vmem S1x2x128 .f32) (harg3 : arg3.IsWhole) (hc0 : cond0_0 i)
    (x0 : Vec F S3x64000 .f32) (y : S1x2x128.Idx) :
    ∃ pc ∈ (kernelRun0_A c i arg2 harg2 arg3 harg3 hc0 x0).1, y ∈ pc.1.set :=
  View.cover_of_tiledL (kernelRun0_A c i arg2 harg2 arg3 harg3 hc0 x0).1 S1x2x128.size (by sl_kernel_rfl) y

/-- What the resetting case leaves in the slab buffer: its pieces read back. -/
def out0_A_1 (c : Dev nD) (i : grid0.Coords) (arg2 : Memref sig .tc .vmem S3x64000 .f32) (harg2 : arg2.IsWhole) (arg3 : Memref sig .tc .vmem S1x2x128 .f32) (harg3 : arg3.IsWhole) (hc0 : cond0_0 i)
    (x0 : Vec F S3x64000 .f32) : Vec F S1x2x128 .f32 :=
  VO0_1.read (Elt F) (VO0_1.writes (Elt F) VO0_1.junk (kernelRun0_A c i arg2 harg2 arg3 harg3 hc0 x0).1)

/-- In the accumulating case the pieces found by the run tile the slab block. -/
theorem cover0_B_1 (c : Dev nD) (i : grid0.Coords) (arg2 : Memref sig .tc .vmem S3x64000 .f32) (harg2 : arg2.IsWhole) (arg3 : Memref sig .tc .vmem S1x2x128 .f32) (harg3 : arg3.IsWhole) (hc0 : ¬cond0_0 i)
    (x0 : Vec F S3x64000 .f32) (xo1 : Vec F S1x2x128 .f32) (y : S1x2x128.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x2x128.size (by sl_kernel_rfl) y

/-- What the accumulating case leaves in the slab buffer: its pieces read back. -/
def out0_B_1 (c : Dev nD) (i : grid0.Coords) (arg2 : Memref sig .tc .vmem S3x64000 .f32) (harg2 : arg2.IsWhole) (arg3 : Memref sig .tc .vmem S1x2x128 .f32) (harg3 : arg3.IsWhole) (hc0 : ¬cond0_0 i)
    (x0 : Vec F S3x64000 .f32) (xo1 : Vec F S1x2x128 .f32) : Vec F S1x2x128 .f32 :=
  VO0_1.read (Elt F) (VO0_1.writes (Elt F) VO0_1.junk (kernelRun0_B c i arg2 harg2 arg3 harg3 hc0 x0 xo1).1)

/-! ## What the slab buffer holds after each point -/

/-- The running contents of the slab buffer after the body at position `n`: reset at the multiples of 25,
    otherwise built on what position `n - 1` left. -/
def outsAt0 (c : Dev nD) : (n : ℕ) → n < cfg0.N → Vec F S1x2x128 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 25 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

theorem outsAt0_A (c : Dev nD) (t : Fin cfg0.N) (h0 : t.val % 25 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

theorem outsAt0_B (c : Dev nD) (t : Fin cfg0.N) (h0 : ¬t.val % 25 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body the packed input's buffer at its block and the slab's
    at the running contents; nothing owed, full shares, the class invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d

/-- Away from the multiples of 25 the slab buffer still holds what the point before left: it was not written
    back in between. -/
theorem before0_1_B (c : Dev nD) (t : Fin cfg0.N) (h0 : ¬t.val % 25 = 0) (d) :
    (dats m 0 c).before 1 t d = (outsAt0 m c (t.val - 1) (Nat.lt_of_le_of_lt (Nat.sub_le _ _) t.isLt)) := by
  have hN : t.val < 50 := lt_of_lt_of_eq t.isLt (show cfg0.N = 50 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 50 := lt_of_lt_of_eq t.isLt (show cfg0.N = 50 from N_0)
  by_cases h0 : t.val % 25 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the packed array and the slab array end at what the proof
    data computes, every other unscoped buffer at what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.Spec.lean ====
/-
  The mathematics of the edge-variance scatter-mean, stated once over the three argument arrays.

  An edge e has a source row and a destination row of the position table: the signed 32-bit index words of
  row 0 and row 1 of the edge array, a negative word moved up by 100000 and the result clamped into
  [0, 99999].  Its displacement is the destination's position minus the source's, its weight
  (|displacement| - 1)^2, and its graph is the batch word of its source row.  Graph g's sum is the sum of the
  weights of the edges whose graph word, read signed, is g; its count the same sum of ones.  The answer is the
  mean over the 128 graphs of sum / max(count, 1).

  A sum over all 3200000 edges splits as two cores x 25 grid steps x 10 chunks x 6400 lanes, the edge number
  being 1600000 c + 64000 i + 6400 k + j.
-/
import Idealize.ShloMosaic.PureOps.Ideal
import Idealize.ShloMosaic.PureOps.Contract
import Idealize.ShloMosaic.PureOps.Vector
import Idealize.ShloMosaic.PureOps.ShapeOps
import Idealize.ShloMosaic.Lib.ValueIdx

noncomputable section

namespace Cert.EdgeVar

open Idealize.ShloMosaic Idealize.ShloMosaic.ValueIdx

abbrev SPos : Shape := ⟨2, ![100000, 2]⟩
abbrev SRaw : Shape := ⟨2, ![2, 3200000]⟩
abbrev SBat : Shape := ⟨1, ![100000]⟩
abbrev SPk : Shape := ⟨2, ![3, 3200000]⟩
abbrev SG : Shape := ⟨1, ![128]⟩
abbrev S0 : Shape := ⟨0, ![]⟩

/-- The float word of 1.0, kept as its bit pattern: both programs use the same word. -/
def one32 : EReal := Ideal.ofBits .f32 0x3F800000#32

/-- A negative index word is moved up by the table's length. -/
def normW (w : BitVec 32) : BitVec 32 := Scalar.select (Scalar.cmpi .slt w 0#32) (Scalar.addi w 100000#32) w
/-- The row a gather reads for an index word: read signed, clamped into the table. -/
def rowW (w : BitVec 32) : Fin 100000 := ⟨min (normW w).toInt.toNat 99999, by omega⟩

/-- (|d| - 1)^2 of a displacement (dx, dy). -/
def edgeVar (dx dy : EReal) : EReal :=
  (Ideal.sqrt (dx * dx + dy * dy) - one32) * (Ideal.sqrt (dx * dx + dy * dy) - one32)

section Args
variable (pos : SPos.Idx → EReal) (raw : SRaw.Idx → BitVec 32) (bat : SBat.Idx → BitVec 32)

def srcRow (e : Fin 3200000) : Fin 100000 := rowW (raw (ix2 0 e))
def dstRow (e : Fin 3200000) : Fin 100000 := rowW (raw (ix2 1 e))
def dX (e : Fin 3200000) : EReal := pos (ix2 (dstRow raw e) 0) - pos (ix2 (srcRow raw e) 0)
def dY (e : Fin 3200000) : EReal := pos (ix2 (dstRow raw e) 1) - pos (ix2 (srcRow raw e) 1)
def gid (e : Fin 3200000) : BitVec 32 := bat (ix1 (srcRow raw e))

/-- Graph g's sum of edge weights. -/
def sums (g : Fin 128) : EReal :=
  ∑ e : Fin 3200000, if (gid raw bat e).toInt = (g.val : Int) then edgeVar (dX pos raw e) (dY pos raw e) else 0
/-- Graph g's number of edges, as a sum of the word 1.0. -/
def cnts (g : Fin 128) : EReal :=
  ∑ e : Fin 3200000, if (gid raw bat e).toInt = (g.val : Int) then one32 else 0

/-- The packed array the kernel's host lines build: displacement x, displacement y, the graph word as a real. -/
def packed : SPk.Idx → EReal := fun i =>
  if (i 0).val = 0 then dX pos raw (i 1) else if (i 0).val = 1 then dY pos raw (i 1)
  else (((gid raw bat (i 1)).toInt : ℝ) : EReal)
end Args

/-- The edge a (core, grid step, chunk, lane) position names. -/
def edgeAt (c : Fin 2) (i : Fin 25) (k : Fin 10) (j : Fin 6400) : Fin 3200000 :=
  ⟨1600000 * c.val + 64000 * i.val + 6400 * k.val + j.val, by omega⟩

/-- What one lane of the kernel's matrix product contributes to slab row r (0: weights, 1: ones), lane g,
    from a packed array P: the row's payload times the 0/1 word of "the graph word of the edge is g". -/
def laneTerm (P : SPk.Idx → EReal) (r : Fin 2) (g : Fin 128) (e : Fin 3200000) : EReal :=
  (if r.val = 0 then edgeVar (P (ix2 0 e)) (P (ix2 1 e)) else one32)
    * (((Scalar.extui (Scalar.cmpi .eq (Ideal.fptosi 32 (P (ix2 2 e))) (BitVec.ofNat 32 g.val))).toInt : ℝ) : EReal)

/-- The host lines both programs end with: the mean over the 128 graphs of sum / max(count, 1), with the
    shape facts they cite as arguments. -/
def tail (hb : S0.BroadcastsInDim SG (![] : Fin 0 → Fin SG.rank)) (hr : SG.ReducesTo [0] S0) (h0 : 0 < S0.numel)
    (S C : SG.Idx → EReal) : S0.Idx → EReal :=
  Host.divf (F := Ideal) (φ := .f32)
    (Host.reduceAdd (F := Ideal) (φ := .f32)
      (Host.divf (F := Ideal) (φ := .f32) S (maximumf (F := Ideal) (φ := .f32) C (broadcastInDim SG ![] hb (constant (F := Ideal) S0 .f32 0x3F800000#32))))
      (constant (F := Ideal) S0 .f32 0x00000000#32) hr h0)
    (constant (F := Ideal) S0 .f32 0x43000000#32)

end Cert.EdgeVar

end
-- ==== Proof.KV.Pay.lean ====
/-
  The kernel body's arithmetic read at an index, at the exact instance.
  One chunk's contribution to slab entry (r, g): the carried value plus (zero plus) the sum over the 6400 lanes of
  row r's payload (r = 0: (|d| - 1)^2 of the lane's displacement; r = 1: the word 1.0) times the 0/1 word of
  "the lane's graph word, truncated to an integer, is g".  The final store adds the loop's value to the slab.
-/
import proofs.«414884_j32220844654986_3_alg».proof.Proof.Gen.KernelIdeal.Skeleton
import proofs.«414884_j32220844654986_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen Cert.EdgeVar

/-- A two-row stack read at (r, j): row 0 is the first piece, row 1 the second, each at lane j. -/
theorem stack_apply {α : Type} (x y : S1x6400.Idx → α) (h : Shape.Concatenates [S1x6400, S1x6400] S2x6400 0)
    (r : Fin 2) (j : Fin 6400) :
    concatenate S2x6400 0 [⟨S1x6400, x⟩, ⟨S1x6400, y⟩] h (ix2 r j) = if r.val = 0 then x (ix2 0 j) else y (ix2 0 j) := by
  match r with
  | ⟨0, _⟩ =>
    refine (concatenate_pair_apply_left (t := S2x6400) (0 : Fin 2) x y h (ix2 (n0 := 2) ⟨0, by decide⟩ j) rfl (ix2 0 j) ?_).trans ?_
    · intro b; match b with | ⟨0, _⟩ => rfl | ⟨1, _⟩ => rfl
    · rfl
  | ⟨1, _⟩ =>
    refine (concatenate_pair_apply_right (t := S2x6400) (0 : Fin 2) x y h (ix2 (n0 := 2) ⟨1, by decide⟩ j) rfl rfl (ix2 0 j) ?_ ?_).trans ?_
    · intro b hb; match b, hb with | ⟨0, _⟩, hb => exact absurd rfl hb | ⟨1, _⟩, _ => rfl
    · rfl
    · rfl

/-- The match word at (g, j): the lane's word compared with the row number g. -/
theorem match_apply (w : IVec S1x6400 32) (hb : S1x6400.Broadcasts S128x6400) (hi : S128x6400.Iotas .tc 32 [0])
    (g : Fin 128) (j : Fin 6400) :
    cmpi .eq (broadcastTo S128x6400 w hb) (iota .tc S128x6400 32 [0] hi) (ix2 g j)
      = Scalar.cmpi .eq (w (ix2 0 j)) (BitVec.ofNat 32 g.val) := by
  show IntOp.cmpi .eq (broadcastTo S128x6400 w hb (ix2 g j)) (iota .tc S128x6400 32 [0] hi (ix2 g j)) = _
  rw [broadcastTo_apply w hb (ix2 g j) (ix2 0 j) (fun a => by match a with | ⟨0, _⟩ => rfl | ⟨1, _⟩ => rfl),
    iota_single_apply]
  rfl

/-- The product's left operand index on its kept axis: the result's row. -/
theorem lhs_axis0 (r : Fin 2) (g : Fin 128) (k : dot_S2x6400_S128x6400_S2x128_1_1_0_0_n_n.contr.Idx) :
    (dot_S2x6400_S128x6400_S2x128_1_1_0_0_n_n.lhsIdx (ix2 r g) k 0 : ℕ) = r.val := by
  simp [DotDims.lhsIdx, dot_S2x6400_S128x6400_S2x128_1_1_0_0_n_n]; rfl
/-- … on its contracted axis: the contraction's one coordinate. -/
theorem lhs_axis1 (r : Fin 2) (g : Fin 128) (k : dot_S2x6400_S128x6400_S2x128_1_1_0_0_n_n.contr.Idx) :
    (dot_S2x6400_S128x6400_S2x128_1_1_0_0_n_n.lhsIdx (ix2 r g) k 1 : ℕ) = (k ⟨0, by decide⟩).val :=
  dot_S2x6400_S128x6400_S2x128_1_1_0_0_n_n.lhsIdx_val_of_single rfl _ _
/-- The right operand index on its kept axis: the result's column. -/
theorem rhs_axis0 (r : Fin 2) (g : Fin 128) (k : dot_S2x6400_S128x6400_S2x128_1_1_0_0_n_n.contr.Idx) :
    (dot_S2x6400_S128x6400_S2x128_1_1_0_0_n_n.rhsIdx (ix2 r g) k 0 : ℕ) = g.val := by
  simp [DotDims.rhsIdx, dot_S2x6400_S128x6400_S2x128_1_1_0_0_n_n]; rfl
/-- … on its contracted axis: the contraction's one coordinate. -/
theorem rhs_axis1 (r : Fin 2) (g : Fin 128) (k : dot_S2x6400_S128x6400_S2x128_1_1_0_0_n_n.contr.Idx) :
    (dot_S2x6400_S128x6400_S2x128_1_1_0_0_n_n.rhsIdx (ix2 r g) k 1 : ℕ) = (k ⟨0, by decide⟩).val :=
  dot_S2x6400_S128x6400_S2x128_1_1_0_0_n_n.rhsIdx_val_of_single rfl _ _

/-- The 0/1 word of the match at (g, j), as the product's right operand reads it. -/
theorem matchWord_apply (w : IVec S1x6400 32) (hb : S1x6400.Broadcasts S128x6400) (hi : S128x6400.Iotas .tc 32 [0])
    (h1 : 1 < 32) (h2 : FTy.bits .bf16 < FTy.bits .f32) (g : Fin 128) (j : Fin 6400) :
    (truncf .bf16 (sitofp .f32 (extui 32 (cmpi .eq (broadcastTo S128x6400 w hb) (iota .tc S128x6400 32 [0] hi)) h1) : FVec Ideal S128x6400 .f32) h2
        : FVec Ideal S128x6400 .bf16) (ix2 g j)
      = (((Scalar.extui (Scalar.cmpi .eq (w (ix2 0 j)) (BitVec.ofNat 32 g.val))).toInt : ℝ) : EReal) := by
  show ((((cmpi .eq (broadcastTo S128x6400 w hb) (iota .tc S128x6400 32 [0] hi) (ix2 g j)).setWidth 32).toInt : ℝ) : EReal) = _
  rw [match_apply]
  rfl

/-- The first store's value: zeros. -/
theorem pay1_apply (y : S1x2x128.Idx) : k0_pay1 (F := Ideal) y = Ideal.ofBits .f32 0x00000000#32 := by
  rfl

/-- The loop's initial value: zeros. -/
theorem pay2_apply (y : S2x128.Idx) : k0_pay2 (F := Ideal) y = Ideal.ofBits .f32 0x00000000#32 := by
  rfl

/-- One chunk: the carried value plus the lane sum of payload times match word. -/
theorem pay3_apply (acc : FVec Ideal S2x128 .f32) (v16 v19 v22 : Vec Ideal S1x6400 .f32) (r : Fin 2) (g : Fin 128) :
    k0_pay3 (F := Ideal) acc v16 v19 v22 (ix2 r g)
      = acc (ix2 r g) + (Ideal.ofBits .f32 0x00000000#32 + ∑ j : Fin 6400,
          (if r.val = 0 then edgeVar (v16 (ix2 0 j)) (v19 (ix2 0 j)) else one32)
            * (((Scalar.extui (Scalar.cmpi .eq (Ideal.fptosi 32 (v22 (ix2 0 j))) (BitVec.ofNat 32 g.val))).toInt : ℝ) : EReal)) := by
  unfold k0_pay3
  dsimp only
  refine (addf_apply _ _ _).trans ?_
  refine congrArg (acc (ix2 r g) + ·) ?_
  refine (Ideal.matmul_apply _ _ _ _ _ (ix2 r g)).trans ?_
  refine congrArg (Ideal.ofBits .f32 0x00000000#32 + ·) ?_
  rw [← Equiv.sum_comp (contrEquiv1 dot_S2x6400_S128x6400_S2x128_1_1_0_0_n_n 6400 rfl rfl).symm]
  refine Finset.sum_congr rfl fun j _ => ?_
  have c := contrEquiv1_symm_val dot_S2x6400_S128x6400_S2x128_1_1_0_0_n_n 6400 rfl rfl j
  have l : dot_S2x6400_S128x6400_S2x128_1_1_0_0_n_n.lhsIdx (ix2 r g)
      ((contrEquiv1 dot_S2x6400_S128x6400_S2x128_1_1_0_0_n_n 6400 rfl rfl).symm j) = ix2 r j := by
    funext ax; apply Fin.ext
    match ax with
    | ⟨0, _⟩ => exact lhs_axis0 r g _
    | ⟨1, _⟩ => exact (lhs_axis1 r g _).trans c
  have rr : dot_S2x6400_S128x6400_S2x128_1_1_0_0_n_n.rhsIdx (ix2 r g)
      ((contrEquiv1 dot_S2x6400_S128x6400_S2x128_1_1_0_0_n_n 6400 rfl rfl).symm j) = ix2 g j := by
    funext ax; apply Fin.ext
    match ax with
    | ⟨0, _⟩ => exact rhs_axis0 r g _
    | ⟨1, _⟩ => exact (rhs_axis1 r g _).trans c
  rw [l, rr]
  refine congrArg₂ (· * ·) ?_ ?_
  · refine (truncf_apply (ψ := .bf16) _ bitsLt_bf16_f32 (ix2 r j)).trans ?_
    refine (stack_apply _ _ _ r j).trans ?_
    rw [shapeCast_self, shapeCast_self]
    rfl
  · refine (matchWord_apply _ _ _ _ _ g j).trans ?_
    rw [shapeCast_self, shapeCast_self]
    rfl

/-- The last store: the slab as loaded plus the loop's value. -/
theorem pay4_apply (v6 : FVec Ideal S2x128 .f32) (v7 : Vec Ideal S1x2x128 .f32) (r : Fin 2) (g : Fin 128) :
    k0_pay4 (F := Ideal) v6 v7 (ix3 0 r g) = v7 (ix3 0 r g) + v6 (ix2 r g) := by
  unfold k0_pay4
  refine (shapeCast_addUnit_apply ![2, 128] _ _ (ix3 0 r g)).trans ?_
  have e1 : (fun a : Fin 2 => (ix3 (0 : Fin 1) r g) a.succ) = ix2 r g := by
    funext a; match a with | ⟨0, _⟩ => rfl | ⟨1, _⟩ => rfl
  rw [e1]
  refine (addf_apply _ _ _).trans ?_
  refine congrArg (· + v6 (ix2 r g)) ?_
  refine (shapeCast_dropUnit_apply ![2, 128] _ _ (ix2 r g)).trans ?_
  refine congrArg v7 ?_
  funext a; match a with | ⟨0, _⟩ => rfl | ⟨1, _⟩ => rfl | ⟨2, _⟩ => rfl

end Cert.KernelIdeal.Val

end
-- ==== Proof.KV.Pieces.lean ====
/-
  What the slab buffer holds after the body, read at an entry, at the exact instance.
  One trip of the chunk loop yields the chunk's payload of the carried value and the three rows of the packed block
  at the chunk's columns; so after n trips the carried value is the initial one plus the first n chunks' lane sums.
  In the resetting case the slab ends at zero plus (zero plus the ten chunks' sums); in the accumulating case at
  what it held plus (zero plus the ten chunks' sums).
-/
import proofs.«414884_j32220844654986_3_alg».proof.Proof.KI.Frame
import proofs.«414884_j32220844654986_3_alg».proof.Proof.KV.Pay
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx
open Cert.KernelIdeal Cert.KernelIdeal.Gen Cert.KernelIdeal.Fr Cert.EdgeVar

/-- The three rectangles a trip loads: row n of the packed block at the chunk's 6400 columns. -/
abbrev R1 (k : Fin k0_t1_loop.trips) : Rect S3x64000 := Rect.unit (s := S3x64000) (k0_off1 k) S1x6400.size (k0_off1_inb k)
abbrev R2 (k : Fin k0_t1_loop.trips) : Rect S3x64000 := Rect.unit (s := S3x64000) (k0_off2 k) S1x6400.size (k0_off2_inb k)
abbrev R3 (k : Fin k0_t1_loop.trips) : Rect S3x64000 := Rect.unit (s := S3x64000) (k0_off3 k) S1x6400.size (k0_off3_inb k)

/-- One trip's yield is the chunk payload of the carried value and the three loaded rows (the run's own find). -/
theorem trip_eq {F : FTy → Type} [FloatOps F] (𝒱 : Variants) (c : Dev nD) (bd : Option 𝒱.V) (i : grid0.Coords)
    (arg2 : Memref sig .tc .vmem S3x64000 .f32) (harg2 : arg2.IsWhole) (arg3 : Memref sig .tc .vmem S1x2x128 .f32) (harg3 : arg3.IsWhole)
    (X : BufTy.Contents (Elt F) arg2.view.ty) (k : Fin k0_t1_loop.trips) (acc : FVec F S2x128 .f32) :
    tripR_k0_t1 (F := F) 𝒱 c bd i arg2 harg2 arg3 harg3 X k acc
      = k0_pay3 acc (View.readAt (Elt F) arg2.view (R1 k).toLoadRect X) (View.readAt (Elt F) arg2.view (R2 k).toLoadRect X)
          (View.readAt (Elt F) arg2.view (R3 k).toLoadRect X) := by
  unfold tripR_k0_t1 trip_k0_t1
  rfl

/-- One chunk's lane sum for slab entry (r, g) from the three loaded rows. -/
def chunkTerm (v16 v19 v22 : Vec Ideal S1x6400 .f32) (r : Fin 2) (g : Fin 128) : EReal :=
  Ideal.ofBits .f32 0x00000000#32 + ∑ j : Fin 6400,
    (if r.val = 0 then edgeVar (v16 (ix2 0 j)) (v19 (ix2 0 j)) else one32)
      * (((Scalar.extui (Scalar.cmpi .eq (Ideal.fptosi 32 (v22 (ix2 0 j))) (BitVec.ofNat 32 g.val))).toInt : ℝ) : EReal)

/-- Row n of the packed block at chunk k's columns, as the trip loads it. -/
abbrev ldRow1 (arg2 : Memref sig .tc .vmem S3x64000 .f32) (harg2 : arg2.IsWhole) (x0 : Vec Ideal S3x64000 .f32) (k : Fin k0_t1_loop.trips) : Vec Ideal S1x6400 .f32 :=
  View.readAt (Elt Ideal) arg2.view (R1 k).toLoadRect (harg2.unread x0)
abbrev ldRow2 (arg2 : Memref sig .tc .vmem S3x64000 .f32) (harg2 : arg2.IsWhole) (x0 : Vec Ideal S3x64000 .f32) (k : Fin k0_t1_loop.trips) : Vec Ideal S1x6400 .f32 :=
  View.readAt (Elt Ideal) arg2.view (R2 k).toLoadRect (harg2.unread x0)
abbrev ldRow3 (arg2 : Memref sig .tc .vmem S3x64000 .f32) (harg2 : arg2.IsWhole) (x0 : Vec Ideal S3x64000 .f32) (k : Fin k0_t1_loop.trips) : Vec Ideal S1x6400 .f32 :=
  View.readAt (Elt Ideal) arg2.view (R3 k).toLoadRect (harg2.unread x0)

/-- The chunk sums of the trips before n. -/
def chunksBefore (arg2 : Memref sig .tc .vmem S3x64000 .f32) (harg2 : arg2.IsWhole) (x0 : Vec Ideal S3x64000 .f32) (r : Fin 2) (g : Fin 128) (n : ℕ) : EReal :=
  ∑ k ∈ Finset.range n, if h : k < k0_t1_loop.trips then
    chunkTerm (ldRow1 arg2 harg2 x0 ⟨k, h⟩) (ldRow2 arg2 harg2 x0 ⟨k, h⟩) (ldRow3 arg2 harg2 x0 ⟨k, h⟩) r g else 0

/-- The carried value before trip n is the initial one plus the chunk sums of the trips before n. -/
theorem loop_eq (c : Dev nD) (i : grid0.Coords)
    (arg2 : Memref sig .tc .vmem S3x64000 .f32) (harg2 : arg2.IsWhole) (arg3 : Memref sig .tc .vmem S1x2x128 .f32) (harg3 : arg3.IsWhole)
    (x0 : Vec Ideal S3x64000 .f32) (init : FVec Ideal S2x128 .f32) (r : Fin 2) (g : Fin 128) :
    ∀ n, n ≤ k0_t1_loop.trips →
      st_k0_t1 (F := Ideal) Variants.none c none i arg2 harg2 arg3 harg3 (harg2.unread x0) init n (ix2 r g)
        = init (ix2 r g) + chunksBefore arg2 harg2 x0 r g n
  | 0, _ => by
    show init (ix2 r g) = init (ix2 r g) + chunksBefore arg2 harg2 x0 r g 0
    unfold chunksBefore; rw [Finset.sum_range_zero, add_zero]
  | n + 1, hn => by
    have hlt : n < k0_t1_loop.trips := hn
    have ih := loop_eq c i arg2 harg2 arg3 harg3 x0 init r g n (Nat.le_of_lt hlt)
    have hs := st_k0_t1_succ (F := Ideal) Variants.none c none i arg2 harg2 arg3 harg3 (harg2.unread x0) init ⟨n, hlt⟩
    show st_k0_t1 (F := Ideal) Variants.none c none i arg2 harg2 arg3 harg3 (harg2.unread x0) init (n + 1) (ix2 r g) = _
    rw [show n + 1 = (⟨n, hlt⟩ : Fin k0_t1_loop.trips).val + 1 from rfl, hs, trip_eq]
    refine (pay3_apply _ _ _ _ r g).trans ?_
    rw [ih]
    unfold chunksBefore
    rw [Finset.sum_range_succ, dif_pos hlt, add_assoc]
    rfl

end Cert.KernelIdeal.Val

end
-- ==== Proof.KV.Outs.lean ====
/-
  The pieces the body's run finds, read back as one value: in the resetting case the slab buffer ends at the final
  store's payload of the loop's value and the zeros just stored; in the accumulating case at the final store's payload
  of the loop's value and what the buffer held.
-/
import proofs.«414884_j32220844654986_3_alg».proof.Proof.KI.Frame
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Fr

variable {F : FTy → Type} [FloatOps F]

theorem off0 : (![0, 0, 0] : Fin S1x2x128.rank → Nat) = fun _ => 0 := by
  funext a; fin_cases a <;> rfl

/-- The loop's value at a point: the carried value after all its trips, from zeros. -/
abbrev loopVal (c : Dev nD) (i : grid0.Coords) (arg2 : Memref sig .tc .vmem S3x64000 .f32) (harg2 : arg2.IsWhole)
    (arg3 : Memref sig .tc .vmem S1x2x128 .f32) (harg3 : arg3.IsWhole) (x0 : Vec F S3x64000 .f32) : FVec F S2x128 .f32 :=
  st_k0_t1 (F := F) Variants.none c none i arg2 harg2 arg3 harg3 (harg2.unread x0) (k0_pay2 (F := F)) k0_t1_loop.trips

theorem out0_B_eq (c : Dev nD) (i : grid0.Coords) (arg2 : Memref sig .tc .vmem S3x64000 .f32) (harg2 : arg2.IsWhole)
    (arg3 : Memref sig .tc .vmem S1x2x128 .f32) (harg3 : arg3.IsWhole) (hc0 : ¬cond0_0 i)
    (x0 : Vec F S3x64000 .f32) (xo1 : Vec F S1x2x128 .f32) :
    out0_B_1 c i arg2 harg2 arg3 harg3 hc0 x0 xo1 = k0_pay4 (loopVal c i arg2 harg2 arg3 harg3 x0) xo1 := by
  unfold out0_B_1
  rw [View.read_writes_eq_canon _ _ _ (cover0_B_1 c i arg2 harg2 arg3 harg3 hc0 x0 xo1)]
  unfold kernelRun0_B
  dsimp only
  sl_unfold_words
  rw [View.canon_unit_zero off0]
  simp only [View.readAt_eq_ld, harg3.read_unread, View.ld_unit_zero (S := S1x2x128) off0]

theorem out0_A_eq (c : Dev nD) (i : grid0.Coords) (arg2 : Memref sig .tc .vmem S3x64000 .f32) (harg2 : arg2.IsWhole)
    (arg3 : Memref sig .tc .vmem S1x2x128 .f32) (harg3 : arg3.IsWhole) (hc0 : cond0_0 i)
    (x0 : Vec F S3x64000 .f32) :
    out0_A_1 c i arg2 harg2 arg3 harg3 hc0 x0 = k0_pay4 (loopVal c i arg2 harg2 arg3 harg3 x0) (k0_pay1 (F := F)) := by
  unfold out0_A_1
  rw [View.read_writes_eq_canon _ _ _ (cover0_A_1 c i arg2 harg2 arg3 harg3 hc0 x0)]
  unfold kernelRun0_A
  dsimp only
  sl_unfold_words
  rw [View.canon_cons_unit_zero (S := S1x2x128) off0, View.readCov_cons_toLoadRect]

end Cert.KernelIdeal.Val

end
-- ==== Proof.KV.Inv.lean ====
/-
  The running contents of the slab buffer, entry by entry, as sums of lane terms of the packed array.
  The packed block at grid position t is columns 64000 t … 64000 t + 63999 of the packed array, so chunk k of
  position t reads columns 64000 t + 6400 k + j; the loop's value at position t is the sum of its 64000 lane terms;
  and after position t the slab entry (r, g) holds the lane terms of all positions from the last multiple of 25 up
  to t: it is reset at the multiples of 25 and added to in between.
-/
import proofs.«414884_j32220844654986_3_alg».proof.Proof.KV.Pieces
import proofs.«414884_j32220844654986_3_alg».proof.Proof.KV.Outs
import Mathlib.Algebra.BigOperators.Fin
import Mathlib.Algebra.BigOperators.Intervals

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx
open Cert.KernelIdeal Cert.KernelIdeal.Gen Cert.KernelIdeal.Fr Cert.EdgeVar

variable (m : (ℓ : Loc nD τ sig) → Buf (Elt Ideal) ℓ)

/-- The packed array as the region finds it. -/
abbrev Pk (c : Dev nD) : SPk.Idx → EReal := Fr.V m c main_v34

theorem trips_eq : k0_t1_loop.trips = 10 := by decide

/-- The packed window's block index at position t: row block 0, column block t. -/
theorem idx_facts : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The packed block at position t is the packed array's columns from 64000 t. -/
theorem iblk_apply (c : Dev nD) (t : Fin cfg0.N) (n : Fin 3) (col : Fin 64000) :
    (iblk m c 0 t : Vec Ideal S3x64000 .f32) (ix2 n col)
      = Pk m c (ix2 n ⟨64000 * t.val + col.val, by have := t.isLt; have : cfg0.N = 50 := N_0; omega⟩) := by
  show Fr.V m c main_v34 (((cfg0.win 0).blk t).view.emb (ix2 n col)) = _
  refine congrArg _ ?_
  funext a
  apply Fin.ext
  match a with
  | ⟨0, _⟩ =>
    show win0_0.index t 0 * 3 + 1 * n.val = n.val
    rw [(idx_facts t).1]; omega
  | ⟨1, _⟩ =>
    show win0_0.index t 1 * 64000 + 1 * col.val = 64000 * t.val + col.val
    rw [(idx_facts t).2]; omega

/-- Row 0 of the block at chunk k's lane j. -/
theorem ldRow1_apply (arg2 : Memref sig .tc .vmem S3x64000 .f32) (harg2 : arg2.IsWhole) (x0 : Vec Ideal S3x64000 .f32)
    (k : Fin k0_t1_loop.trips) (j : Fin 6400) :
    ldRow1 arg2 harg2 x0 k (ix2 0 j)
      = x0 (ix2 0 ⟨6400 * k.val + j.val, by have h1 := k.isLt; have h2 : k0_t1_loop.trips = 10 := trips_eq; have := j.isLt; omega⟩) := by
  show View.readAt (Elt Ideal) arg2.view (R1 k).toLoadRect (harg2.unread x0) (ix2 0 j) = _
  rw [View.readAt_eq_ld, harg2.read_unread]
  show x0 ((R1 k).idx (ix2 0 j)) = _
  refine congrArg _ ?_
  funext a
  apply Fin.ext
  match a with
  | ⟨0, _⟩ =>
    show k0_off1 k 0 + 1 * 0 = 0
    rw [k0_off1_eq]; rfl
  | ⟨1, _⟩ =>
    show k0_off1 k 1 + 1 * j.val = 6400 * k.val + j.val
    rw [k0_off1_eq]
    show 6400 * k.val + 1 * j.val = _
    omega

/-- Row 1 of the block at chunk k's lane j. -/
theorem ldRow2_apply (arg2 : Memref sig .tc .vmem S3x64000 .f32) (harg2 : arg2.IsWhole) (x0 : Vec Ideal S3x64000 .f32)
    (k : Fin k0_t1_loop.trips) (j : Fin 6400) :
    ldRow2 arg2 harg2 x0 k (ix2 0 j)
      = x0 (ix2 1 ⟨6400 * k.val + j.val, by have h1 := k.isLt; have h2 : k0_t1_loop.trips = 10 := trips_eq; have := j.isLt; omega⟩) := by
  show View.readAt (Elt Ideal) arg2.view (R2 k).toLoadRect (harg2.unread x0) (ix2 0 j) = _
  rw [View.readAt_eq_ld, harg2.read_unread]
  show x0 ((R2 k).idx (ix2 0 j)) = _
  refine congrArg _ ?_
  funext a
  apply Fin.ext
  match a with
  | ⟨0, _⟩ =>
    show k0_off2 k 0 + 1 * 0 = 1
    rw [k0_off2_eq]; rfl
  | ⟨1, _⟩ =>
    show k0_off2 k 1 + 1 * j.val = 6400 * k.val + j.val
    rw [k0_off2_eq]
    show 6400 * k.val + 1 * j.val = _
    omega

/-- Row 2 of the block at chunk k's lane j. -/
theorem ldRow3_apply (arg2 : Memref sig .tc .vmem S3x64000 .f32) (harg2 : arg2.IsWhole) (x0 : Vec Ideal S3x64000 .f32)
    (k : Fin k0_t1_loop.trips) (j : Fin 6400) :
    ldRow3 arg2 harg2 x0 k (ix2 0 j)
      = x0 (ix2 2 ⟨6400 * k.val + j.val, by have h1 := k.isLt; have h2 : k0_t1_loop.trips = 10 := trips_eq; have := j.isLt; omega⟩) := by
  show View.readAt (Elt Ideal) arg2.view (R3 k).toLoadRect (harg2.unread x0) (ix2 0 j) = _
  rw [View.readAt_eq_ld, harg2.read_unread]
  show x0 ((R3 k).idx (ix2 0 j)) = _
  refine congrArg _ ?_
  funext a
  apply Fin.ext
  match a with
  | ⟨0, _⟩ =>
    show k0_off3 k 0 + 1 * 0 = 2
    rw [k0_off3_eq]; rfl
  | ⟨1, _⟩ =>
    show k0_off3 k 1 + 1 * j.val = 6400 * k.val + j.val
    rw [k0_off3_eq]
    show 6400 * k.val + 1 * j.val = _
    omega

/-- A lane term by its edge number (zero past the last edge). -/
def laneN (P : SPk.Idx → EReal) (r : Fin 2) (g : Fin 128) (n : ℕ) : EReal :=
  if h : n < 3200000 then laneTerm P r g ⟨n, h⟩ else 0

/-- The lane terms of one grid position: its ten chunks of 6400 lanes. -/
def ptSum (P : SPk.Idx → EReal) (r : Fin 2) (g : Fin 128) (t : ℕ) : EReal :=
  ∑ k ∈ Finset.range 10, ∑ j ∈ Finset.range 6400, laneN P r g (64000 * t + (6400 * k + j))

/-- One chunk of position t is the lane terms of its 6400 edges. -/
theorem chunk_eq (c : Dev nD) (t : Fin cfg0.N) (arg2 : Memref sig .tc .vmem S3x64000 .f32) (harg2 : arg2.IsWhole)
    (k : Fin k0_t1_loop.trips) (r : Fin 2) (g : Fin 128) :
    chunkTerm (ldRow1 arg2 harg2 (iblk m c 0 t) k) (ldRow2 arg2 harg2 (iblk m c 0 t) k) (ldRow3 arg2 harg2 (iblk m c 0 t) k) r g
      = ∑ j ∈ Finset.range 6400, laneN (Pk m c) r g (64000 * t.val + (6400 * k.val + j)) := by
  have hk : k.val < 10 := lt_of_lt_of_eq k.isLt trips_eq
  have ht : t.val < 50 := lt_of_lt_of_eq t.isLt N_0
  unfold chunkTerm
  rw [Ideal.ofBits_zero_f32, zero_add, Finset.sum_range]
  refine Finset.sum_congr rfl fun j _ => ?_
  have hj := j.isLt
  unfold laneN
  rw [dif_pos (by omega), ldRow1_apply, ldRow2_apply, ldRow3_apply, iblk_apply, iblk_apply, iblk_apply]
  rfl

/-- The loop's value at position t is the lane terms of position t. -/
theorem loopVal_eq (c : Dev nD) (t : Fin cfg0.N) (i : grid0.Coords) (arg2 : Memref sig .tc .vmem S3x64000 .f32) (harg2 : arg2.IsWhole)
    (arg3 : Memref sig .tc .vmem S1x2x128 .f32) (harg3 : arg3.IsWhole) (r : Fin 2) (g : Fin 128) :
    loopVal (F := Ideal) c i arg2 harg2 arg3 harg3 (iblk m c 0 t) (ix2 r g) = ptSum (Pk m c) r g t.val := by
  show st_k0_t1 (F := Ideal) Variants.none c none i arg2 harg2 arg3 harg3 (harg2.unread (iblk m c 0 t)) (k0_pay2 (F := Ideal)) k0_t1_loop.trips (ix2 r g) = _
  rw [loop_eq c i arg2 harg2 arg3 harg3 (iblk m c 0 t) _ r g _ le_rfl, pay2_apply, Ideal.ofBits_zero_f32, zero_add]
  unfold chunksBefore ptSum
  have hr : Finset.range 10 = Finset.range k0_t1_loop.trips := by rw [trips_eq]
  rw [hr]
  refine Finset.sum_congr rfl fun k hk => ?_
  have hk' : k < k0_t1_loop.trips := Finset.mem_range.mp hk
  rw [dif_pos hk']
  exact chunk_eq m c t arg2 harg2 ⟨k, hk'⟩ r g

/-- After position n the slab entry (r, g) holds the lane terms of the positions from the last multiple of 25 to n. -/
theorem outs_eq (c : Dev nD) (r : Fin 2) (g : Fin 128) : ∀ (n : ℕ) (hn : n < cfg0.N),
    (outsAt0 m c n hn : Vec Ideal S1x2x128 .f32) (ix3 0 r g)
      = ∑ i ∈ Finset.range (n % 25 + 1), ptSum (Pk m c) r g (n - n % 25 + i)
  | 0, hn => by
    have h := outsAt0_A m c ⟨0, hn⟩ (Nat.zero_mod _)
    rw [show outsAt0 m c 0 hn = _ from h, out0_A_eq, pay4_apply, pay1_apply, Ideal.ofBits_zero_f32, zero_add, loopVal_eq]
    simp
  | n + 1, hn => by
    by_cases h0 : (n + 1) % 25 = 0
    · have h := outsAt0_A m c ⟨n + 1, hn⟩ h0
      rw [show outsAt0 m c (n + 1) hn = _ from h, out0_A_eq, pay4_apply, pay1_apply, Ideal.ofBits_zero_f32, zero_add, loopVal_eq]
      rw [h0]
      simp
    · have h := outsAt0_B m c ⟨n + 1, hn⟩ h0
      have ih := outs_eq c r g n (Nat.lt_of_succ_lt hn)
      rw [show outsAt0 m c (n + 1) hn = _ from h, out0_B_eq, pay4_apply, loopVal_eq]
      have e1 : (n + 1) % 25 = n % 25 + 1 := by omega
      have e2 : n + 1 - (n % 25 + 1) = n - n % 25 := by omega
      have e3 : n - n % 25 + (n % 25 + 1) = n + 1 := by omega
      rw [e1, e2, Finset.sum_range_succ, e3]
      refine congrArg (· + _) ?_
      exact ih

end Cert.KernelIdeal.Val

end
-- ==== Proof.Alg.lean ====
/-
  Sums over the edges and the 0/1 word of a graph match.
  A sum over the 3200000 edges is the iterated sum over (core, grid step, chunk, lane); converting a signed
  32-bit word to a real and truncating it back gives the word; a payload times the 0/1 word of a match is the
  payload on a match and 0 otherwise, so the lane terms of the packed array sum to the graph sums and counts.
-/
import proofs.«414884_j32220844654986_3_alg».proof.Proof.Spec
import Mathlib.Algebra.BigOperators.Fin
import Mathlib.Algebra.BigOperators.Intervals

noncomputable section

namespace Cert.EdgeVar

open Idealize.ShloMosaic Idealize.ShloMosaic.ValueIdx

/-- A sum over the first a * b naturals, read in a blocks of b. -/
private theorem sum_range_mul (a b : ℕ) (F : ℕ → EReal) :
    ∑ n ∈ Finset.range (a * b), F n = ∑ i ∈ Finset.range a, ∑ j ∈ Finset.range b, F (i * b + j) := by
  induction a with
  | zero => simp
  | succ a ih => rw [Nat.succ_mul, Finset.sum_range_add, ih, Finset.sum_range_succ]

/-- The same, three levels deep. -/
private theorem sum_range_mul4 (a b c d : ℕ) (F : ℕ → EReal) :
    ∑ n ∈ Finset.range (a * (b * (c * d))), F n
      = ∑ i ∈ Finset.range a, ∑ j ∈ Finset.range b, ∑ k ∈ Finset.range c, ∑ l ∈ Finset.range d,
          F (i * (b * (c * d)) + (j * (c * d) + (k * d + l))) := by
  rw [sum_range_mul]
  refine Finset.sum_congr rfl fun i _ => ?_
  rw [sum_range_mul b (c * d) (fun n => F (i * (b * (c * d)) + n))]
  refine Finset.sum_congr rfl fun j _ => ?_
  rw [sum_range_mul c d (fun n => F (i * (b * (c * d)) + (j * (c * d) + n)))]

/-- The edge sum split along cores, grid steps, chunks and lanes. -/
theorem sum_split (f : Fin 3200000 → EReal) :
    ∑ e : Fin 3200000, f e = ∑ c : Fin 2, ∑ i : Fin 25, ∑ k : Fin 10, ∑ j : Fin 6400, f (edgeAt c i k j) := by
  -- f extended by 0 to all naturals
  let F : ℕ → EReal := fun n => if h : n < 3200000 then f ⟨n, h⟩ else 0
  have hF : ∀ (n : ℕ) (h : n < 3200000), F n = f ⟨n, h⟩ := fun n h => dif_pos h
  have h4 : (3200000 : ℕ) = 2 * (25 * (10 * 6400)) := by norm_num
  calc ∑ e : Fin 3200000, f e
      = ∑ n ∈ Finset.range 3200000, F n := by
        rw [Finset.sum_range]
        exact Finset.sum_congr rfl fun e _ => (hF e.val e.isLt).symm
    _ = ∑ n ∈ Finset.range (2 * (25 * (10 * 6400))), F n := by rw [← h4]
    _ = ∑ c ∈ Finset.range 2, ∑ i ∈ Finset.range 25, ∑ k ∈ Finset.range 10, ∑ j ∈ Finset.range 6400,
          F (c * (25 * (10 * 6400)) + (i * (10 * 6400) + (k * 6400 + j))) := sum_range_mul4 2 25 10 6400 F
    _ = ∑ c : Fin 2, ∑ i : Fin 25, ∑ k : Fin 10, ∑ j : Fin 6400, f (edgeAt c i k j) := by
        simp only [Finset.sum_range]
        refine Finset.sum_congr rfl fun c _ => Finset.sum_congr rfl fun i _ =>
          Finset.sum_congr rfl fun k _ => Finset.sum_congr rfl fun j _ => ?_
        have hlt : c.val * (25 * (10 * 6400)) + (i.val * (10 * 6400) + (k.val * 6400 + j.val)) < 3200000 := by
          have := c.isLt; have := i.isLt; have := k.isLt; have := j.isLt; omega
        rw [hF _ hlt]
        congr 1
        apply Fin.ext
        simp only [edgeAt]
        omega

/-- A signed 32-bit word survives the trip through the reals. -/
theorem fptosi_sitofp (b : BitVec 32) : Ideal.fptosi 32 (((b.toInt : ℝ)) : EReal) = b := by
  have h1 : b.toInt < 2 ^ (32 - 1) := BitVec.toInt_lt
  have h2 : -2 ^ (32 - 1) ≤ b.toInt := BitVec.le_toInt b
  have hr : (if (0 : ℝ) ≤ (b.toInt : ℝ) then ⌊(b.toInt : ℝ)⌋ else ⌈(b.toInt : ℝ)⌉) = b.toInt := by
    split
    · exact Int.floor_intCast _
    · exact Int.ceil_intCast _
  rw [Ideal.fptosi, Ideal.toIntClamped_coe, hr]
  have hc : max (-((2 ^ (32 - 1) : ℕ) : ℤ)) (min (((2 ^ (32 - 1) : ℕ) : ℤ) - 1) b.toInt) = b.toInt := by
    norm_num at h1 h2 ⊢
    omega
  rw [hc, BitVec.ofInt_toInt]

/-- The 0/1 word of an equality test, widened to 32 bits and read as a real: 1 on equal words, else 0. -/
private theorem extui_cmpi_eq (x y : BitVec 32) :
    (((Scalar.extui (Scalar.cmpi .eq x y)).toInt : ℝ) : EReal) = if x = y then 1 else 0 := by
  have hw : (Scalar.extui (Scalar.cmpi .eq x y)).toInt = if x = y then 1 else 0 := by
    by_cases h : x = y
    · have hb : (x == y) = true := by simpa using h
      simp only [Scalar.extui, Scalar.cmpi, IntOp.cmpi, hb, if_pos h]
      decide
    · have hb : (x == y) = false := by simpa using h
      simp only [Scalar.extui, Scalar.cmpi, IntOp.cmpi, hb, if_neg h]
      decide
  rw [hw]
  split
  · rw [Int.cast_one, EReal.coe_one]
  · rw [Int.cast_zero, EReal.coe_zero]

/-- A word equals the word of a small natural exactly when its signed reading is that natural. -/
private theorem eq_ofNat_iff (x : BitVec 32) (g : ℕ) (hg : g < 128) :
    x = BitVec.ofNat 32 g ↔ x.toInt = (g : ℤ) := by
  have h : (BitVec.ofNat 32 g).toInt = (g : ℤ) := by
    rw [BitVec.toInt_ofNat']
    exact Int.bmod_eq_of_le_mul_two (by norm_num; omega) (by norm_num; omega)
  constructor
  · intro hx; rw [hx, h]
  · intro hx; exact BitVec.eq_of_toInt_eq (hx.trans h.symm)

section Args
variable (pos : SPos.Idx → EReal) (raw : SRaw.Idx → BitVec 32) (bat : SBat.Idx → BitVec 32)

/-- A lane term of the packed array: the row's payload if the edge's graph word is g, else 0. -/
theorem laneTerm_packed (r : Fin 2) (g : Fin 128) (e : Fin 3200000) :
    laneTerm (packed pos raw bat) r g e
      = if (gid raw bat e).toInt = (g.val : Int) then
          (if r.val = 0 then edgeVar (dX pos raw e) (dY pos raw e) else one32) else 0 := by
  have h0 : packed pos raw bat (ix2 0 e) = dX pos raw e := rfl
  have h1 : packed pos raw bat (ix2 1 e) = dY pos raw e := rfl
  have h2 : packed pos raw bat (ix2 2 e) = (((gid raw bat e).toInt : ℝ) : EReal) := rfl
  rw [laneTerm, h0, h1, h2, fptosi_sitofp, extui_cmpi_eq]
  by_cases h : (gid raw bat e).toInt = (g.val : ℤ)
  · rw [if_pos h, if_pos ((eq_ofNat_iff _ _ g.isLt).2 h), mul_one]
  · rw [if_neg h, if_neg (fun h' => h ((eq_ofNat_iff _ _ g.isLt).1 h')), mul_zero]

theorem sum_laneTerm_sums (g : Fin 128) : ∑ e : Fin 3200000, laneTerm (packed pos raw bat) 0 g e = sums pos raw bat g := by
  unfold sums
  refine Finset.sum_congr rfl fun e _ => ?_
  have hr : (0 : Fin 2).val = 0 := rfl
  rw [laneTerm_packed, if_pos hr]

theorem sum_laneTerm_cnts (g : Fin 128) : ∑ e : Fin 3200000, laneTerm (packed pos raw bat) 1 g e = cnts raw bat g := by
  unfold cnts
  refine Finset.sum_congr rfl fun e _ => ?_
  have hr : ¬ (1 : Fin 2).val = 0 := by decide
  rw [laneTerm_packed, if_neg hr]
end Args

end Cert.EdgeVar

end
-- ==== Proof.KV.Final.lean ====
/-
  The slab array after the run, and the kernel program's result.
  The slab window's block at position t is slab t / 25 of the [2, 2, 128] array, written back at positions 24 and 49
  only, so slab c' ends at the lane terms of positions 25 c' … 25 c' + 24: the whole array is one function of the
  packed array.  The host lines after the region add the two slabs entry by entry (from a zero word), split the
  weight row from the count row, and apply the closing lines; the sum over the two slabs, 25 positions, 10 chunks
  and 6400 lanes is the sum over all edges.
-/
import proofs.«414884_j32220844654986_3_alg».proof.Proof.KV.Inv
import proofs.«414884_j32220844654986_3_alg».proof.Proof.Alg
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx Idealize.ShloMosaic.StableHlo
open Cert.KernelIdeal Cert.KernelIdeal.Gen Cert.KernelIdeal.Fr Cert.EdgeVar

variable (m : (ℓ : Loc nD τ sig) → Buf (Elt Ideal) ℓ)

/-- The slab window's block index at position t: slab t / 25, whole rows and lanes. -/
theorem idx_facts1 : ∀ t : Fin cfg0.N, win0_1.index t (0 : Fin 3) = t.val / 25 ∧ win0_1.index t (1 : Fin 3) = 0 ∧ win0_1.index t (2 : Fin 3) = 0 :=
  (by decide +kernel : ∀ t : Fin grid0.N, win0_1.index t (0 : Fin 3) = t.val / 25 ∧ win0_1.index t (1 : Fin 3) = 0 ∧ win0_1.index t (2 : Fin 3) = 0)

/-- The slab array as one function of the packed array: slab c', entry (r, g) is the lane terms of its 25 positions. -/
def slabG (c : Dev nD) : S2x2x128.Idx → EReal := fun i =>
  ∑ p ∈ Finset.range 25, ptSum (Pk m c) ⟨(i 1).val, (i 1).isLt⟩ ⟨(i 2).val, (i 2).isLt⟩ (25 * (i 0).val + p)

/-- What a write-back position writes back is its block of that function. -/
theorem flushed1_eq (c : Dev nD) (t : Fin cfg0.N) (hf : (cfg0.win 1).flush t = true) :
    (dats m 0 c).flushed 1 t = ((cfg0.win 1).blk t).view.read (Elt Ideal) (slabG m c) := by
  have h24 : t.val % 25 = 24 := (flush0_1 t).mp hf
  have ht : t.val < 50 := lt_of_lt_of_eq t.isLt N_0
  show (cfg0.win 1).cut (grid0.coords t) ((dats m 0 c).after 1 t) = _
  rw [after0_1]
  funext j
  have hj0 : j 0 = (0 : Fin 1) := Fin.ext (by have h : (j 0).val < 1 := (j 0).isLt; show (j 0).val = 0; omega)
  obtain ⟨r, g, rfl⟩ : ∃ (r : Fin 2) (g : Fin 128), j = ix3 0 r g :=
    ⟨j 1, j 2, (eq_ix3 j).trans (by rw [hj0]; rfl)⟩
  have hemb : ((cfg0.win 1).blk t).view.emb (ix3 0 r g) = ix3 ⟨t.val / 25, by omega⟩ r g := by
    funext a
    apply Fin.ext
    match a with
    | ⟨0, _⟩ =>
      show win0_1.index t 0 * 1 + 1 * 0 = t.val / 25
      rw [(idx_facts1 t).1]; omega
    | ⟨1, _⟩ =>
      show win0_1.index t 1 * 2 + 1 * r.val = r.val
      rw [(idx_facts1 t).2.1]; omega
    | ⟨2, _⟩ =>
      show win0_1.index t 2 * 128 + 1 * g.val = g.val
      rw [(idx_facts1 t).2.2]; omega
  show (outsAt0 m c t.val t.isLt : Vec Ideal S1x2x128 .f32) (ix3 0 r g) = slabG m c (((cfg0.win 1).blk t).view.emb (ix3 0 r g))
  rw [hemb, outs_eq m c r g t.val t.isLt, h24]
  show _ = ∑ p ∈ Finset.range 25, ptSum (Pk m c) r g (25 * (t.val / 25) + p)
  refine Finset.sum_congr rfl fun p _ => ?_
  congr 1
  omega

/-- An index of the slab array is in position t's block iff each coordinate is in the block's range. -/
theorem mem_blk1 (t : Fin cfg0.N) (i : S2x2x128.Idx) :
    i ∈ ((cfg0.win 1).blk t).view.set ↔ ∀ a : Fin 3, win0_1.index t a * S1x2x128.size a ≤ (i a).val ∧ (i a).val < win0_1.index t a * S1x2x128.size a + S1x2x128.size a := by
  show i ∈ ((View.whole main_v35).slice (win0_1.rect t)).set ↔ _
  rw [View.set_slice_whole, Rect.mem_set_unit]
  exact Iff.rfl

/-- Every entry of the slab array is written back: slab c' at position 25 c' + 24. -/
theorem cover1 (i : S2x2x128.Idx) : ∃ t : Fin cfg0.N, (cfg0.win 1).flush t = true ∧ i ∈ ((cfg0.win 1).blk t).view.set := by
  have h0 : (i 0).val < 2 := (i 0).isLt
  have h1 : (i 1).val < 2 := (i 1).isLt
  have h2 : (i 2).val < 128 := (i 2).isLt
  have hN : cfg0.N = 50 := N_0
  let t : Fin cfg0.N := ⟨25 * (i 0).val + 24, by omega⟩
  obtain ⟨e0, e1, e2⟩ := idx_facts1 t
  have tv : t.val = 25 * (i 0).val + 24 := rfl
  refine ⟨t, (flush0_1 t).mpr (by rw [tv]; omega), ?_⟩
  rw [mem_blk1]
  intro a
  match a with
  | ⟨0, _⟩ =>
    show win0_1.index t 0 * 1 ≤ (i 0).val ∧ (i 0).val < win0_1.index t 0 * 1 + 1
    rw [e0, tv]; omega
  | ⟨1, _⟩ =>
    show win0_1.index t 1 * 2 ≤ (i 1).val ∧ (i 1).val < win0_1.index t 1 * 2 + 2
    rw [e1]; omega
  | ⟨2, _⟩ =>
    show win0_1.index t 2 * 128 ≤ (i 2).val ∧ (i 2).val < win0_1.index t 2 * 128 + 128
    rw [e2]; omega

/-- The slab array after the run. -/
theorem final1 (c : Dev nD) : (dats m 0 c).arrAt 1 cfg0.N = slabG m c :=
  (dats m 0 c).arrAt_eq_of_cover 1 (slabG m c) (fun t hf => flushed1_eq m c t hf) cover1

end Cert.KernelIdeal.Val

end
-- ==== Proof.KV.KTail.lean ====
/-
  The kernel program's result at the exact instance: the host lines after the region applied to the slab array.
  They add the two slabs entry by entry from a zero word, so entry (r, g) of the sum is the lane terms of every
  edge — the two slabs' 25 positions x 10 chunks x 6400 lanes are the 3200000 edges, each once —; row 0 is the
  graph sums and row 1 the graph counts of the specification, and the remaining lines are the shared closing lines.
-/
import proofs.«414884_j32220844654986_3_alg».proof.Proof.KV.Final
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx Idealize.ShloMosaic.StableHlo
open Cert.KernelIdeal Cert.KernelIdeal.Gen Cert.KernelIdeal.Fr Cert.EdgeVar

variable (m : (ℓ : Loc nD τ sig) → Buf (Elt Ideal) ℓ)

/-- The two slabs' entries (r, g) together are the lane terms of all edges. -/
theorem slab_total (c : Dev nD) (r : Fin 2) (g : Fin 128) :
    ∑ c' : Fin 2, slabG m c (ix3 c' r g) = ∑ e : Fin 3200000, laneTerm (Pk m c) r g e := by
  rw [sum_split]
  refine Finset.sum_congr rfl fun c' _ => ?_
  show ∑ p ∈ Finset.range 25, ptSum (Pk m c) r g (25 * c'.val + p) = _
  rw [Finset.sum_range]
  refine Finset.sum_congr rfl fun i _ => ?_
  unfold ptSum
  rw [Finset.sum_range]
  refine Finset.sum_congr rfl fun k _ => ?_
  rw [Finset.sum_range]
  refine Finset.sum_congr rfl fun j _ => ?_
  have hc := c'.isLt
  have hi := i.isLt
  have hk := k.isLt
  have hj := j.isLt
  unfold laneN
  rw [dif_pos (by omega)]
  refine congrArg _ (Fin.ext ?_)
  show 64000 * (25 * c'.val + i.val) + (6400 * k.val + j.val) = 1600000 * c'.val + 64000 * i.val + 6400 * k.val + j.val
  omega

/-- The sum of the two slabs, as the host's reduction over the slab axis. -/
abbrev slabSum (O : S2x2x128.Idx → EReal) : S2x128.Idx → EReal :=
  Host.reduceAdd (F := Ideal) (φ := .f32) O (constant (F := Ideal) S_ .f32 0x00000000#32) reducesTo_S2x2x128_S2x128_d0 h_S_

/-- Row r of the slabs' sum as a vector over the graphs. -/
abbrev rowOf (O : S2x2x128.Idx → EReal) (r : Fin 2) (hs : S2x128.Slices ![r.val, 0] S1x128) : S128.Idx → EReal :=
  shapeCast S128 (extractStridedSlice S1x128 ![r.val, 0] (slabSum O) hs) shapeCasts_S1x128_S128

/-- Entry g of row r of the slabs' sum is the lane terms of all edges. -/
theorem rowOf_apply (c : Dev nD) (r : Fin 2) (hs : S2x128.Slices ![r.val, 0] S1x128) (g : Fin 128) :
    rowOf (slabG m c) r hs (ix1 g) = ∑ e : Fin 3200000, laneTerm (Pk m c) r g e := by
  unfold rowOf
  rw [shapeCast_apply _ shapeCasts_S1x128_S128 (ix1 g) (ix2 0 g)
    (by rewrite [Shape.rowMajor_val_two, Shape.rowMajor_val_one]; show 0 * 128 + g.val = g.val; omega)]
  rw [extractStridedSlice_apply ![r.val, 0] _ hs (ix2 0 g) (ix2 r g) (fun a => match a with
    | ⟨0, _⟩ => by show r.val = r.val + 0; omega
    | ⟨1, _⟩ => by show g.val = 0 + g.val; omega)]
  unfold slabSum
  simp only [Host.reduceAdd, Ideal.hostReduceAdd_def]
  rw [Ideal.hostReduceAdd_single reducesTo_S2x2x128_S2x128_d0 (by decide)]
  show Ideal.ofBits .f32 0x00000000#32 + _ = _
  rw [Ideal.ofBits_zero_f32, zero_add, ← slab_total m c r g]
  refine Finset.sum_congr rfl fun c' _ => ?_
  refine congrArg _ (funext fun a => Fin.ext ?_)
  match a with
  | ⟨0, _⟩ => rfl
  | ⟨1, _⟩ => rfl
  | ⟨2, _⟩ => rfl

end Cert.KernelIdeal.Val

end
-- ==== Proof.LibRowGather.lean ====
/-
  Row gathers with clamping, and a vector scatter-add, read at an index.

  A `stablehlo.gather` that picks whole rows of a rank-2 operand [N, C] (or elements of a rank-1 operand [N]) by one
  start index per result row: the start index is read signed and clamped into [0, N - 1], whatever its value.
  A float `stablehlo.scatter` with an `add` body into a rank-1 operand [N] by one scatter index per update
  element, at the exact instance: the operand's element plus the sum of the updates whose index, read signed, is
  that element's position (an index outside the operand adds nothing).
  Each statement takes an arbitrary dimension-number record with equations naming its fields.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowGatherClamp

open Idealize.ShloMosaic Idealize.ShloMosaic.ValueIdx

variable {N C E w : Nat} {α : Type}

/-- `x[idx]` over a rank-2 operand read at (e, c): row `clamp(idx[e])` of the operand. -/
theorem gather_rows_clamp (hN : 0 < N) (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cs, ob, sb, sm, iv, ss, wf⟩ := d
  simp only at hod hcs hob hsb hsm hiv hss
  subst hod hcs hob hsb hsm hiv hss
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (k : Fin ([0] : List (Fin 2)).length),
        GatherDims.siIdx (⟨[1], [0], [], [], [0], 1, ![1, C], wf⟩ :
          GatherDims ⟨2, ![N, C]⟩ ⟨2, ![E, 1]⟩ ⟨2, ![E, C]⟩) (ix2 e c) k = ix2 e 0 := by
      intro k
      funext b; refine Fin.ext ?_
      match b with
      | ⟨0, _⟩ => rfl
      | ⟨1, _⟩ =>
        show k.val = 0
        have := k.isLt
        simp only [List.length_singleton] at this
        omega
    rw [hsi]
    rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- `x[idx]` over a rank-1 operand read at e: element `clamp(idx[e])` of the operand. -/
theorem gather_vec_clamp (hN : 0 < N) (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cs, ob, sb, sm, iv, ss, wf⟩ := d
  simp only at hod hcs hob hsb hsm hiv hss
  subst hod hcs hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ (k : Fin ([0] : List (Fin 1)).length),
      GatherDims.siIdx (⟨[], [0], [], [], [0], 1, ![1], wf⟩ :
        GatherDims ⟨1, ![N]⟩ ⟨2, ![E, 1]⟩ ⟨1, ![E]⟩) (ix1 e) k = ix2 e 0 := by
    intro k
    funext b; refine Fin.ext ?_
    match b with
    | ⟨0, _⟩ => rfl
    | ⟨1, _⟩ =>
      show k.val = 0
      have := k.isLt
      simp only [List.length_singleton] at this
      omega
  rw [hsi]
  rfl

/-- The rank-1 index set [E] is `Fin E`. -/
def idxEquiv1 (E : Nat) : Fin E ≃ (⟨1, ![E]⟩ : Shape).Idx where
  toFun e := ix1 e
  invFun j := j 0
  left_inv _ := rfl
  right_inv j := (eq_ix1 j).symm

/-- Update element `e` of a vector scatter lands on operand position `n` exactly when its scatter index, read
    signed, is `n`: the window coordinate on the one (inserted) operand axis is 0 and the start there is the index. -/
theorem resultIdx_vec_iff (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  have hst : ∀ a : Fin 1, ScatterDims.start (⟨[], [0], [0], 1, wf⟩ :
      ScatterDims ⟨1, ![N]⟩ ⟨2, ![E, 1]⟩ ⟨1, ![E]⟩) (ix1 e) idx a = (idx (ix2 e 0)).toInt := by
    intro a
    obtain rfl : a = 0 := Subsingleton.elim _ _
    unfold ScatterDims.start
    rw [dif_pos (List.mem_singleton.mpr rfl)]
    have hsi : ∀ (k : Fin ([0] : List (Fin 1)).length),
        ScatterDims.siIdx (⟨[], [0], [0], 1, wf⟩ :
          ScatterDims ⟨1, ![N]⟩ ⟨2, ![E, 1]⟩ ⟨1, ![E]⟩) (ix1 e) k = ix2 e 0 := by
      intro k
      funext b; refine Fin.ext ?_
      match b with
      | ⟨0, _⟩ => rfl
      | ⟨1, _⟩ =>
        show k.val = 0
        have := k.isLt
        simp only [List.length_singleton] at this
        omega
    rw [hsi]
  have hwi : ∀ a : Fin 1, ScatterDims.window (⟨[], [0], [0], 1, wf⟩ :
      ScatterDims ⟨1, ![N]⟩ ⟨2, ![E, 1]⟩ ⟨1, ![E]⟩) (ix1 e) a = 0 := by
    intro a
    obtain rfl : a = 0 := Subsingleton.elim _ _
    unfold ScatterDims.window
    rw [dif_neg (show (0 : Fin 1) ∉ Shape.kept ⟨1, ![N]⟩ [0] by simp [Shape.kept])]
  have hsz : ∀ a : Fin 1, (⟨1, ![N]⟩ : Shape).size a = N := by
    intro a
    obtain rfl : a = 0 := Subsingleton.elim _ _
    rfl
  have hn := n.isLt
  unfold ScatterDims.resultIdx?
  split
  · next h =>
    constructor
    · intro hs
      have h1 := congrArg (fun f => (f 0).val) (Option.some.inj hs)
      simp only [hst, hwi] at h1
      have h0 := h 0
      rw [hst, hwi] at h0
      change _ = n.val at h1
      omega
    · intro hs
      congr 1
      funext a
      obtain rfl : a = 0 := Subsingleton.elim _ _
      refine Fin.ext ?_
      show (ScatterDims.start _ (ix1 e) idx 0 + (ScatterDims.window _ (ix1 e) 0 : Nat)).toNat = n.val
      rw [hst, hwi]
      omega
  · next h =>
    constructor
    · intro hs; cases hs
    · intro hs
      exfalso
      apply h
      intro a
      rw [hst, hwi, hsz]
      omega

/-- `x.at[idx].add(upd)` over a rank-1 operand read at n, at the exact instance. -/
theorem scatterAdd_vec_apply (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) d x idx upd (ix1 n)
      = x (ix1 n) + ∑ e : Fin E, if (idx (ix2 e 0)).toInt = (n.val : Int) then upd (ix1 e) else 0 := by
  show Ideal.hostScatterAdd d x idx upd (ix1 n) = _
  unfold Ideal.hostScatterAdd
  congr 1
  rw [Finset.sum_filter, ← Equiv.sum_comp (idxEquiv1 E)]
  refine Finset.sum_congr rfl (fun e _ => ?_)
  show (if d.resultIdx? (ix1 e) idx = some (ix1 n) then upd (ix1 e) else 0) = _
  by_cases hq : (idx (ix2 e 0)).toInt = (n.val : Int)
  · rw [if_pos hq, if_pos ((resultIdx_vec_iff d huw hiw hsd hiv idx e n).mpr hq)]
  · rw [if_neg hq, if_neg (fun h => hq ((resultIdx_vec_iff d huw hiw hsd hiv idx e n).mp h))]

end Idealize.ShloMosaic.RowGatherClamp

end
-- ==== Proof.KV.Prefix.lean ====
/-
  What the kernel's host lines put in the packed array, at the exact instance: row 0 the edges' x displacements,
  row 1 their y displacements, row 2 their graph words as reals — the 39 lines read at an index, the two row
  gathers at their clamped rows (the gather of the position table widened by the batch column reads the same row
  as a gather of the position table or of the batch vector alone).
-/
import proofs.«414884_j32220844654986_3_alg».proof.Proof.KI.FrameKit
import proofs.«414884_j32220844654986_3_alg».proof.Proof.Spec
import proofs.«414884_j32220844654986_3_alg».proof.Proof.Alg
import proofs.«414884_j32220844654986_3_alg».proof.Proof.LibRowGather
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.SL.Sem Idealize.ShloMosaic.StableHlo
open Idealize.ShloMosaic.ValueIdx Cert.KernelIdeal Cert.KernelIdeal.Gen Cert.EdgeVar

/-! ## The host lines as functions of the three argument arrays -/

section Stages
variable (pos : SPos.Idx → EReal) (raw : SRaw.Idx → BitVec 32) (bat : SBat.Idx → BitVec 32)

/-- Row 0 of the edge array as a vector of words. -/
def hRow0 : S3200000.Idx → BitVec 32 :=
  shapeCast S3200000 (extractStridedSlice S1x3200000 ![0, 0] raw slices_S2x3200000_S1x3200000_0_0) shapeCasts_S1x3200000_S3200000
/-- Row 1 of the edge array as a vector of words. -/
def hRow1 : S3200000.Idx → BitVec 32 :=
  shapeCast S3200000 (extractStridedSlice S1x3200000 ![1, 0] raw slices_S2x3200000_S1x3200000_1_0) shapeCasts_S1x3200000_S3200000

theorem hRow0_apply (e : Fin 3200000) : hRow0 raw (ix1 e) = raw (ix2 0 e) := by
  unfold hRow0
  refine (shapeCast_apply _ shapeCasts_S1x3200000_S3200000 (ix1 e) (ix2 0 e)
    (by rewrite [Shape.rowMajor_val_two, Shape.rowMajor_val_one]; show 0 * 3200000 + e.val = e.val; omega)).trans ?_
  exact extractStridedSlice_apply ![0, 0] raw slices_S2x3200000_S1x3200000_0_0 (ix2 0 e) (ix2 0 e) (fun a => match a with
    | ⟨0, _⟩ => by show (0 : Nat) = 0 + 0; omega
    | ⟨1, _⟩ => by show e.val = 0 + e.val; omega)

theorem hRow1_apply (e : Fin 3200000) : hRow1 raw (ix1 e) = raw (ix2 1 e) := by
  unfold hRow1
  refine (shapeCast_apply _ shapeCasts_S1x3200000_S3200000 (ix1 e) (ix2 0 e)
    (by rewrite [Shape.rowMajor_val_two, Shape.rowMajor_val_one]; show 0 * 3200000 + e.val = e.val; omega)).trans ?_
  exact extractStridedSlice_apply ![1, 0] raw slices_S2x3200000_S1x3200000_1_0 (ix2 0 e) (ix2 1 e) (fun a => match a with
    | ⟨0, _⟩ => by show (1 : Nat) = 1 + 0; omega
    | ⟨1, _⟩ => by show e.val = 0 + e.val; omega)

/-- A vector of index words normalised (a negative word moved up by 100000) and made a column. -/
def hNorm (w : S3200000.Idx → BitVec 32) : S3200000x1.Idx → BitVec 32 :=
  broadcastInDim S3200000x1 ![0] bcast_S3200000_S3200000x1_0
    (select (cmpi .slt w (broadcastInDim S3200000 ![] bcast_S_S3200000 (constantI S_ 32 0#32)))
      (addi w (broadcastInDim S3200000 ![] bcast_S_S3200000 (constantI S_ 32 100000#32))) w)

theorem hNorm_apply (w : S3200000.Idx → BitVec 32) (e : Fin 3200000) : hNorm w (ix2 e 0) = normW (w (ix1 e)) := by
  unfold hNorm
  refine (broadcastInDim_apply _ bcast_S3200000_S3200000x1_0 _ (ix2 e 0) (ix1 e) (fun a => match a with
    | ⟨0, _⟩ => by show e.val = if (3200000 : Nat) = 1 then 0 else e.val; rw [if_neg (by decide)])).trans ?_
  rfl
end Stages

/-! ## The layout lines read at an index, over an arbitrary operand -/

section Layout
variable {α : Type}

/-- A one-column array read as a vector. -/
theorem col_apply (y : S3200000x1.Idx → α) (e : Fin 3200000) :
    shapeCast S3200000 y shapeCasts_S3200000x1_S3200000 (ix1 e) = y (ix2 e 0) :=
  shapeCast_apply y shapeCasts_S3200000x1_S3200000 (ix1 e) (ix2 e 0)
    (by rewrite [Shape.rowMajor_val_two, Shape.rowMajor_val_one]; show e.val * 1 + 0 = e.val; omega)

/-- Columns 0 and 1 of a three-column array. -/
theorem slice32_apply (y : S3200000x3.Idx → α) (e : Fin 3200000) (c : Fin 2) :
    extractStridedSlice S3200000x2 ![0, 0] y slices_S3200000x3_S3200000x2_0_0 (ix2 e c) = y (ix2 e c.castSucc) :=
  extractStridedSlice_apply ![0, 0] y slices_S3200000x3_S3200000x2_0_0 (ix2 e c) (ix2 e c.castSucc)
    (fun a => match a with
      | ⟨0, _⟩ => by show e.val = 0 + e.val; omega
      | ⟨1, _⟩ => by show c.val = 0 + c.val; omega)

/-- Column 2 of a three-column array. -/
theorem slice31_apply (y : S3200000x3.Idx → α) (e : Fin 3200000) :
    extractStridedSlice S3200000x1 ![0, 2] y slices_S3200000x3_S3200000x1_0_2 (ix2 e 0) = y (ix2 e 2) :=
  extractStridedSlice_apply ![0, 2] y slices_S3200000x3_S3200000x1_0_2 (ix2 e 0) (ix2 e 2)
    (fun a => match a with
      | ⟨0, _⟩ => by show e.val = 0 + e.val; omega
      | ⟨1, _⟩ => by show (2 : Nat) = 2 + 0; omega)

/-- Column 0 of a two-column array. -/
theorem slice21_0_apply (y : S3200000x2.Idx → α) (e : Fin 3200000) :
    extractStridedSlice S3200000x1 ![0, 0] y slices_S3200000x2_S3200000x1_0_0 (ix2 e 0) = y (ix2 e 0) :=
  extractStridedSlice_apply ![0, 0] y slices_S3200000x2_S3200000x1_0_0 (ix2 e 0) (ix2 e 0)
    (fun a => match a with
      | ⟨0, _⟩ => by show e.val = 0 + e.val; omega
      | ⟨1, _⟩ => by show (0 : Nat) = 0 + 0; omega)

/-- Column 1 of a two-column array. -/
theorem slice21_1_apply (y : S3200000x2.Idx → α) (e : Fin 3200000) :
    extractStridedSlice S3200000x1 ![0, 1] y slices_S3200000x2_S3200000x1_0_1 (ix2 e 0) = y (ix2 e 1) :=
  extractStridedSlice_apply ![0, 1] y slices_S3200000x2_S3200000x1_0_1 (ix2 e 0) (ix2 e 1)
    (fun a => match a with
      | ⟨0, _⟩ => by show e.val = 0 + e.val; omega
      | ⟨1, _⟩ => by show (1 : Nat) = 1 + 0; omega)

/-- A vector made a one-row array. -/
theorem row_apply (v : S3200000.Idx → α) (e : Fin 3200000) :
    broadcastInDim S1x3200000 ![1] bcast_S3200000_S1x3200000_1 v (ix2 0 e) = v (ix1 e) :=
  broadcastInDim_apply _ bcast_S3200000_S1x3200000_1 v (ix2 0 e) (ix1 e) (fun a => match a with
    | ⟨0, _⟩ => by show e.val = if (3200000 : Nat) = 1 then 0 else e.val; rw [if_neg (by decide)])

/-- A vector of 100000 made a one-column array. -/
theorem tcol_apply (v : S100000.Idx → α) (n : Fin 100000) :
    broadcastInDim S100000x1 ![0] bcast_S100000_S100000x1_0 v (ix2 n 0) = v (ix1 n) :=
  broadcastInDim_apply _ bcast_S100000_S100000x1_0 v (ix2 n 0) (ix1 n) (fun a => match a with
    | ⟨0, _⟩ => by show n.val = if (100000 : Nat) = 1 then 0 else n.val; rw [if_neg (by decide)])

/-- A two-column and a one-column array side by side: the first two columns. -/
theorem wide_lo_apply (x : S100000x2.Idx → α) (y : S100000x1.Idx → α) (n : Fin 100000) (c : Fin 2) :
    concatenate S100000x3 1 [⟨S100000x2, x⟩, ⟨S100000x1, y⟩] concatenates_S100000x2_S100000x1_S100000x3_d1 (ix2 n c.castSucc)
      = x (ix2 n c) :=
  concatenate_pair_apply_left (t := S100000x3) (s₁ := S100000x2) (s₂ := S100000x1) (1 : Fin 2) x y concatenates_S100000x2_S100000x1_S100000x3_d1 (ix2 n c.castSucc) rfl (ix2 n c)
    (fun b => match b with
      | ⟨0, _⟩ => rfl
      | ⟨1, _⟩ => rfl)

/-- A two-column and a one-column array side by side: the third column. -/
theorem wide_hi_apply (x : S100000x2.Idx → α) (y : S100000x1.Idx → α) (n : Fin 100000) :
    concatenate S100000x3 1 [⟨S100000x2, x⟩, ⟨S100000x1, y⟩] concatenates_S100000x2_S100000x1_S100000x3_d1 (ix2 n 2)
      = y (ix2 n 0) :=
  concatenate_pair_apply_right (t := S100000x3) (s₁ := S100000x2) (s₂ := S100000x1) (1 : Fin 2) x y concatenates_S100000x2_S100000x1_S100000x3_d1 (ix2 n 2) rfl rfl (ix2 n 0)
    (fun b => match b with
      | ⟨0, _⟩ => fun _ => rfl
      | ⟨1, _⟩ => fun h => absurd rfl h)
    (by show (0 : Nat) + 2 = 2; rfl)

/-- Three one-row arrays stacked: row r is the r-th. -/
theorem stackRows_apply (v : Fin 3 → S3200000.Idx → α) (r : Fin 3) (e : Fin 3200000) :
    concatenate S3x3200000 0
      [⟨S1x3200000, broadcastInDim S1x3200000 ![1] bcast_S3200000_S1x3200000_1 (v 0)⟩,
       ⟨S1x3200000, broadcastInDim S1x3200000 ![1] bcast_S3200000_S1x3200000_1 (v 1)⟩,
       ⟨S1x3200000, broadcastInDim S1x3200000 ![1] bcast_S3200000_S1x3200000_1 (v 2)⟩]
      concatenates_S1x3200000_S1x3200000_S1x3200000_S3x3200000_d0 (ix2 r e) = v r (ix1 e) := by
  have key : ∀ (k : Nat) (hk : k < 3) (hx : ([(⟨S1x3200000, broadcastInDim S1x3200000 ![1] bcast_S3200000_S1x3200000_1 (v 0)⟩ : (s : Shape) × (s.Idx → α)),
       ⟨S1x3200000, broadcastInDim S1x3200000 ![1] bcast_S3200000_S1x3200000_1 (v 1)⟩,
       ⟨S1x3200000, broadcastInDim S1x3200000 ![1] bcast_S3200000_S1x3200000_1 (v 2)⟩][k]'hk)
         = ⟨S1x3200000, broadcastInDim S1x3200000 ![1] bcast_S3200000_S1x3200000_1 (v ⟨k, hk⟩)⟩)
      (hpre : ((([(⟨S1x3200000, broadcastInDim S1x3200000 ![1] bcast_S3200000_S1x3200000_1 (v 0)⟩ : (s : Shape) × (s.Idx → α)),
       ⟨S1x3200000, broadcastInDim S1x3200000 ![1] bcast_S3200000_S1x3200000_1 (v 1)⟩,
       ⟨S1x3200000, broadcastInDim S1x3200000 ![1] bcast_S3200000_S1x3200000_1 (v 2)⟩].take k).map (·.1)).map
          fun s => if h : s.rank = S3x3200000.rank then s.size ((0 : Fin S3x3200000.rank).cast h.symm) else 0).sum = k),
      concatenate S3x3200000 0
        [⟨S1x3200000, broadcastInDim S1x3200000 ![1] bcast_S3200000_S1x3200000_1 (v 0)⟩,
         ⟨S1x3200000, broadcastInDim S1x3200000 ![1] bcast_S3200000_S1x3200000_1 (v 1)⟩,
         ⟨S1x3200000, broadcastInDim S1x3200000 ![1] bcast_S3200000_S1x3200000_1 (v 2)⟩]
        concatenates_S1x3200000_S1x3200000_S1x3200000_S3x3200000_d0 (ix2 ⟨k, hk⟩ e) = v ⟨k, hk⟩ (ix1 e) := by
    intro k hk hx hpre
    refine (concatenate_apply_piece (α := α) (t := S3x3200000) (0 : Fin 2)
      [⟨S1x3200000, broadcastInDim S1x3200000 ![1] bcast_S3200000_S1x3200000_1 (v 0)⟩,
       ⟨S1x3200000, broadcastInDim S1x3200000 ![1] bcast_S3200000_S1x3200000_1 (v 1)⟩,
       ⟨S1x3200000, broadcastInDim S1x3200000 ![1] bcast_S3200000_S1x3200000_1 (v 2)⟩]
      concatenates_S1x3200000_S1x3200000_S1x3200000_S3x3200000_d0 (ix2 ⟨k, hk⟩ e)
      k hk S1x3200000 _ hx rfl k hpre (ix2 0 e)
      (fun b => match b with
        | ⟨0, _⟩ => fun h => absurd rfl h
        | ⟨1, _⟩ => fun _ => rfl)
      (by show k + 0 = k; omega)).trans ?_
    exact row_apply _ e
  match r with
  | ⟨0, h⟩ => exact key 0 h rfl rfl
  | ⟨1, h⟩ => exact key 1 h rfl rfl
  | ⟨2, h⟩ => exact key 2 h rfl rfl
end Layout

/-- Three one-row arrays stacked along the rows. -/
def stack3 (a b d : S1x3200000.Idx → EReal) : S3x3200000.Idx → EReal :=
  concatenate S3x3200000 0 [⟨S1x3200000, a⟩, ⟨S1x3200000, b⟩, ⟨S1x3200000, d⟩]
    concatenates_S1x3200000_S1x3200000_S1x3200000_S3x3200000_d0

/-! ## The later host lines as functions of the three argument arrays -/

section Stages2
variable (pos : SPos.Idx → EReal) (raw : SRaw.Idx → BitVec 32) (bat : SBat.Idx → BitVec 32)

/-- The position table widened by the batch words, converted to reals, as a third column. -/
def hTab : S100000x3.Idx → EReal :=
  concatenate S100000x3 1
    [⟨S100000x2, pos⟩, ⟨S100000x1, broadcastInDim S100000x1 ![0] bcast_S100000_S100000x1_0 (sitofp (F := Ideal) .f32 bat)⟩]
    concatenates_S100000x2_S100000x1_S100000x3_d1

/-- Columns 0 and 1 of the widened table are the position table's. -/
theorem hTab_lo (n : Fin 100000) (c : Fin 2) : hTab pos bat (ix2 n c.castSucc) = pos (ix2 n c) :=
  wide_lo_apply pos _ n c

/-- Column 2 of the widened table is the batch word read signed, as a real. -/
theorem hTab_hi (n : Fin 100000) : hTab pos bat (ix2 n 2) = (((bat (ix1 n)).toInt : ℝ) : EReal) :=
  (wide_hi_apply pos _ n).trans (tcol_apply _ n)

/-- The widened table's rows at the edges' source words. -/
def hSrc : S3200000x3.Idx → EReal :=
  Host.gather gather_S100000x3_S3200000x1_S3200000x3_1_0_n_n_0_1_13 (hTab pos bat) (hNorm (hRow0 raw))
/-- The position table's rows at the edges' destination words. -/
def hDst : S3200000x2.Idx → EReal :=
  Host.gather gather_S100000x2_S3200000x1_S3200000x2_1_0_n_n_0_1_12 pos (hNorm (hRow1 raw))

theorem hSrc_apply (e : Fin 3200000) (c : Fin 3) : hSrc pos raw bat (ix2 e c) = hTab pos bat (ix2 (srcRow raw e) c) := by
  unfold hSrc
  generalize hTab pos bat = T
  refine (RowGatherClamp.gather_rows_clamp (N := 100000) (C := 3) (E := 3200000) (by decide)
    gather_S100000x3_S3200000x1_S3200000x3_1_0_n_n_0_1_13 rfl rfl rfl rfl rfl rfl rfl T (hNorm (hRow0 raw)) e c).trans ?_
  refine congrArg (fun r => T (ix2 r c)) (Fin.ext ?_)
  show min (hNorm (hRow0 raw) (ix2 e 0)).toInt.toNat (100000 - 1) = min (normW (raw (ix2 0 e))).toInt.toNat 99999
  rw [hNorm_apply, hRow0_apply]

theorem hDst_apply (e : Fin 3200000) (c : Fin 2) : hDst pos raw (ix2 e c) = pos (ix2 (dstRow raw e) c) := by
  unfold hDst
  refine (RowGatherClamp.gather_rows_clamp (N := 100000) (C := 2) (E := 3200000) (by decide)
    gather_S100000x2_S3200000x1_S3200000x2_1_0_n_n_0_1_12 rfl rfl rfl rfl rfl rfl rfl pos (hNorm (hRow1 raw)) e c).trans ?_
  refine congrArg (fun r => pos (ix2 r c)) (Fin.ext ?_)
  show min (hNorm (hRow1 raw) (ix2 e 0)).toInt.toNat (100000 - 1) = min (normW (raw (ix2 1 e))).toInt.toNat 99999
  rw [hNorm_apply, hRow1_apply]

/-- Destination position minus source position, both coordinates. -/
def hDiff : S3200000x2.Idx → EReal :=
  subf (F := Ideal) (φ := .f32) (hDst pos raw)
    (extractStridedSlice S3200000x2 ![0, 0] (hSrc pos raw bat) slices_S3200000x3_S3200000x2_0_0)

theorem hDiff_apply (e : Fin 3200000) (c : Fin 2) :
    hDiff pos raw bat (ix2 e c) = pos (ix2 (dstRow raw e) c) - pos (ix2 (srcRow raw e) c) := by
  show hDst pos raw (ix2 e c) - extractStridedSlice S3200000x2 ![0, 0] (hSrc pos raw bat) slices_S3200000x3_S3200000x2_0_0 (ix2 e c) = _
  rw [slice32_apply, hSrc_apply, hTab_lo, hDst_apply]

/-- The x displacements as a vector. -/
def hX : S3200000.Idx → EReal :=
  shapeCast S3200000 (extractStridedSlice S3200000x1 ![0, 0] (hDiff pos raw bat) slices_S3200000x2_S3200000x1_0_0) shapeCasts_S3200000x1_S3200000
/-- The y displacements as a vector. -/
def hY : S3200000.Idx → EReal :=
  shapeCast S3200000 (extractStridedSlice S3200000x1 ![0, 1] (hDiff pos raw bat) slices_S3200000x2_S3200000x1_0_1) shapeCasts_S3200000x1_S3200000
/-- Column 2 of the gathered widened table as a vector. -/
def hG0 : S3200000.Idx → EReal :=
  shapeCast S3200000 (extractStridedSlice S3200000x1 ![0, 2] (hSrc pos raw bat) slices_S3200000x3_S3200000x1_0_2) shapeCasts_S3200000x1_S3200000
/-- The graph words: truncated to integers and converted back. -/
def hG : S3200000.Idx → EReal :=
  sitofp (F := Ideal) .f32 (fptosi (F := Ideal) (φ := .f32) 32 (hG0 pos raw bat))

theorem hX_apply (e : Fin 3200000) : hX pos raw bat (ix1 e) = dX pos raw e := by
  unfold hX
  rw [col_apply, slice21_0_apply, hDiff_apply]
  rfl

theorem hY_apply (e : Fin 3200000) : hY pos raw bat (ix1 e) = dY pos raw e := by
  unfold hY
  rw [col_apply, slice21_1_apply, hDiff_apply]
  rfl

theorem hG0_apply (e : Fin 3200000) : hG0 pos raw bat (ix1 e) = (((gid raw bat e).toInt : ℝ) : EReal) := by
  unfold hG0
  rw [col_apply, slice31_apply, hSrc_apply, hTab_hi]
  rfl

theorem hG_apply (e : Fin 3200000) : hG pos raw bat (ix1 e) = (((gid raw bat e).toInt : ℝ) : EReal) := by
  show (((Ideal.fptosi 32 (hG0 pos raw bat (ix1 e))).toInt : ℝ) : EReal) = _
  rw [hG0_apply, fptosi_sitofp]

/-- The three vectors stacked as the rows of one array. -/
def hPacked : S3x3200000.Idx → EReal :=
  stack3 (broadcastInDim S1x3200000 ![1] bcast_S3200000_S1x3200000_1 (hX pos raw bat))
    (broadcastInDim S1x3200000 ![1] bcast_S3200000_S1x3200000_1 (hY pos raw bat))
    (broadcastInDim S1x3200000 ![1] bcast_S3200000_S1x3200000_1 (hG pos raw bat))

theorem hPacked_eq : hPacked pos raw bat = packed pos raw bat := by
  funext i
  obtain ⟨r, e, rfl⟩ : ∃ (r : Fin 3) (e : Fin 3200000), i = ix2 r e := ⟨i 0, i 1, ValueIdx.eq_ix2 i⟩
  have h := stackRows_apply (fun k : Fin 3 => match k with
    | ⟨0, _⟩ => hX pos raw bat | ⟨1, _⟩ => hY pos raw bat | ⟨2, _⟩ => hG pos raw bat) r e
  refine Eq.trans (show hPacked pos raw bat (ix2 r e) = _ from h) ?_
  match r with
  | ⟨0, _⟩ =>
    show hX pos raw bat (ix1 e) = _
    rw [hX_apply]
    exact (if_pos rfl).symm
  | ⟨1, _⟩ =>
    show hY pos raw bat (ix1 e) = _
    rw [hY_apply]
    exact ((if_neg (by show ¬ (1 : Nat) = 0; decide)).trans (if_pos rfl)).symm
  | ⟨2, _⟩ =>
    show hG pos raw bat (ix1 e) = _
    rw [hG_apply]
    exact ((if_neg (by show ¬ (2 : Nat) = 0; decide)).trans (if_neg (by show ¬ (2 : Nat) = 1; decide))).symm
end Stages2

/-! ## The host lines' results are those functions of the argument arrays -/

section Run
variable (m : (ℓ : Loc nD τ sig) → Buf (Elt Ideal) ℓ) (c : Dev nD)

set_option maxHeartbeats 2000000 in
theorem v31_eq : (Cert.KernelIdeal.Fr.V m c main_v31 : S1x3200000.Idx → EReal)
    = broadcastInDim S1x3200000 ![1] bcast_S3200000_S1x3200000_1
        (hX (m ((c.tc : Thread nD τ).loc main_arg0)) (m ((c.tc : Thread nD τ).loc main_arg1)) (m ((c.tc : Thread nD τ).loc main_arg2))) := by
  dsimp only [Fr.V, Fr.V0]
  simp only [hostOps0, List.flatten_cons, List.flatten_nil, List.append_nil, List.cons_append, List.nil_append]
  after_results
  rfl

set_option maxHeartbeats 2000000 in
theorem v32_eq : (Cert.KernelIdeal.Fr.V m c main_v32 : S1x3200000.Idx → EReal)
    = broadcastInDim S1x3200000 ![1] bcast_S3200000_S1x3200000_1
        (hY (m ((c.tc : Thread nD τ).loc main_arg0)) (m ((c.tc : Thread nD τ).loc main_arg1)) (m ((c.tc : Thread nD τ).loc main_arg2))) := by
  dsimp only [Fr.V, Fr.V0]
  simp only [hostOps0, List.flatten_cons, List.flatten_nil, List.append_nil, List.cons_append, List.nil_append]
  after_results
  rfl

set_option maxHeartbeats 2000000 in
theorem v33_eq : (Cert.KernelIdeal.Fr.V m c main_v33 : S1x3200000.Idx → EReal)
    = broadcastInDim S1x3200000 ![1] bcast_S3200000_S1x3200000_1
        (hG (m ((c.tc : Thread nD τ).loc main_arg0)) (m ((c.tc : Thread nD τ).loc main_arg1)) (m ((c.tc : Thread nD τ).loc main_arg2))) := by
  dsimp only [Fr.V, Fr.V0]
  simp only [hostOps0, List.flatten_cons, List.flatten_nil, List.append_nil, List.cons_append, List.nil_append]
  after_results
  rfl

set_option maxHeartbeats 2000000 in
theorem v34_eq : (Cert.KernelIdeal.Fr.V m c main_v34 : S3x3200000.Idx → EReal)
    = hPacked (m ((c.tc : Thread nD τ).loc main_arg0)) (m ((c.tc : Thread nD τ).loc main_arg1)) (m ((c.tc : Thread nD τ).loc main_arg2)) := by
  have h31 := v31_eq m c
  have h32 := v32_eq m c
  have h33 := v33_eq m c
  dsimp only [Fr.V, Fr.V0] at h31 h32 h33 ⊢
  simp only [hostOps0, List.flatten_cons, List.flatten_nil, List.append_nil, List.cons_append, List.nil_append,
    after_cons, after_nil] at h31 h32 h33 ⊢
  refine (nary_result _ _ _ _ _ _).trans ?_
  have e31 := Eq.trans (Eq.symm (nary_result_ne _ _ _ _ _ _ (by decide))) h31
  have e32 := Eq.trans (Eq.symm (nary_result_ne _ _ _ _ _ _ (by decide))) h32
  have e33 := Eq.trans (Eq.symm (nary_result_ne _ _ _ _ _ _ (by decide))) h33
  have E := congr (congr (congrArg stack3 e31) e32) e33
  exact E
end Run

/-- The packed array at the region's entry is the specification's, as a function of the three argument arrays. -/
theorem packed_eq (m : (ℓ : Loc nD τ sig) → Buf (Elt Ideal) ℓ) (c : Dev nD) :
    (Cert.KernelIdeal.Fr.V m c main_v34 : SPk.Idx → EReal)
      = packed (m ((c.tc : Thread nD τ).loc main_arg0)) (m ((c.tc : Thread nD τ).loc main_arg1)) (m ((c.tc : Thread nD τ).loc main_arg2)) :=
  (v34_eq m c).trans (hPacked_eq _ _ _)

end Cert.KernelIdeal.Val

end
-- ==== Proof.KV.Result.lean ====
/-
  The kernel program's result: the closing lines applied to the specification's graph sums and counts.
  After the region the host lines read the slab array; its row sums over the two slabs are the lane terms of all
  edges of the packed array, which is the specification's packed array, so row 0 is the graph sums and row 1 the
  graph counts.
-/
import proofs.«414884_j32220844654986_3_alg».proof.Proof.KV.KTail
import proofs.«414884_j32220844654986_3_alg».proof.Proof.KV.Prefix

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx Idealize.ShloMosaic.StableHlo
open Cert.KernelIdeal Cert.KernelIdeal.Gen Cert.KernelIdeal.Fr Cert.EdgeVar

variable (m : (ℓ : Loc nD τ sig) → Buf (Elt Ideal) ℓ)

/-- The host lines after the region, applied to the slab array the run leaves. -/
theorem tail_term (c : Dev nD) :
    (Pipeline.afterTail₀ cfgs (dats m) 0 (V0 m) [hostOps1] c main_v45 : S0.Idx → EReal)
      = tail bcast_S_S128 reducesTo_S128_S_d0 h_S_
          (rowOf (slabG m c) 0 slices_S2x128_S1x128_0_0) (rowOf (slabG m c) 1 slices_S2x128_S1x128_1_0) := by
  unfold Pipeline.afterTail₀
  simp only [List.flatten_cons, List.flatten_nil, List.append_nil]
  show StableHlo.after hostOps1 _ (Proc.devRef .tc main_v45) = _
  after_results
  rw [Pipeline.withArrays_arr spec0 launch0.win.arr_inj c _ _ 1, final1]
  rfl

/-- The kernel program's result. -/
theorem kernel_result (c : Dev nD) :
    (Pipeline.afterTail₀ cfgs (dats m) 0 (V0 m) [hostOps1] c main_v45 : S0.Idx → EReal)
      = tail bcast_S_S128 reducesTo_S128_S_d0 h_S_
          (fun g => sums (m ((c.tc : Thread nD τ).loc main_arg0)) (m ((c.tc : Thread nD τ).loc main_arg1)) (m ((c.tc : Thread nD τ).loc main_arg2)) (g 0))
          (fun g => cnts (m ((c.tc : Thread nD τ).loc main_arg1)) (m ((c.tc : Thread nD τ).loc main_arg2)) (g 0)) := by
  rw [tail_term]
  have hP : Pk m c = packed (m ((c.tc : Thread nD τ).loc main_arg0)) (m ((c.tc : Thread nD τ).loc main_arg1)) (m ((c.tc : Thread nD τ).loc main_arg2)) :=
    packed_eq m c
  have hS : rowOf (slabG m c) 0 slices_S2x128_S1x128_0_0
      = fun g => sums (m ((c.tc : Thread nD τ).loc main_arg0)) (m ((c.tc : Thread nD τ).loc main_arg1)) (m ((c.tc : Thread nD τ).loc main_arg2)) (g 0) := by
    funext g
    obtain ⟨n, rfl⟩ : ∃ n : Fin 128, g = ix1 n := ⟨g 0, eq_ix1 g⟩
    rw [rowOf_apply m c 0 _ n, hP]
    exact sum_laneTerm_sums _ _ _ n
  have hC : rowOf (slabG m c) 1 slices_S2x128_S1x128_1_0
      = fun g => cnts (m ((c.tc : Thread nD τ).loc main_arg1)) (m ((c.tc : Thread nD τ).loc main_arg2)) (g 0) := by
    funext g
    obtain ⟨n, rfl⟩ : ∃ n : Fin 128, g = ix1 n := ⟨g 0, eq_ix1 g⟩
    rw [rowOf_apply m c 1 _ n, hP]
    exact sum_laneTerm_cnts _ _ _ n
  rw [hS, hC]

/-- Every weakly fair execution of the kernel program terminates with its result at the closing lines of the
    specification's sums and counts, and its arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v45)
        = tail bcast_S_S128 reducesTo_S128_S_d0 h_S_
            (fun g => sums (m ((c.tc : Thread nD τ).loc main_arg0)) (m ((c.tc : Thread nD τ).loc main_arg1)) (m ((c.tc : Thread nD τ).loc main_arg2)) (g 0))
            (fun g => cnts (m ((c.tc : Thread nD τ).loc main_arg1)) (m ((c.tc : Thread nD τ).loc main_arg2)) (g 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v45 (Pipeline.mem_restRefs_of main_v45 (by decide) (by decide))).trans (kernel_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Val

end
-- ==== Proof.RV.Ref.lean ====
/-
  The reference's result at the exact instance, as the shared closing lines applied to the graph sums and counts of
  the specification: its 60 host lines read at an index — the row gathers at their clamped rows, the two
  scatter-adds as sums over the edges whose graph word matches.
-/
import proofs.«414884_j32220844654986_3_alg».proof.Proof.Gen.ReferenceIdeal.Read
import proofs.«414884_j32220844654986_3_alg».proof.Proof.Spec
import proofs.«414884_j32220844654986_3_alg».proof.Proof.LibRowGather
import Mathlib.Algebra.BigOperators.Fin

noncomputable section

namespace Cert.ReferenceIdeal.Val

open Idealize.ShloMosaic Idealize.ShloMosaic.TcCoe Idealize.SL.Sem Idealize.ShloMosaic.StableHlo
open Idealize.ShloMosaic.ValueIdx Cert.ReferenceIdeal Cert.ReferenceIdeal.Gen Cert.EdgeVar
open Cert.ReferenceIdeal.Read Idealize.ShloMosaic.RowGatherClamp

section Stages
variable (pos : S100000x2.Idx → EReal) (raw : S2x3200000.Idx → BitVec 32) (bat : S100000.Idx → BitVec 32)

/-- The closing lines of the reference are the specification's closing lines on lines 34 and 38. -/
theorem v43_tail :
    val_main_v43 (F := Ideal) pos raw bat
      = tail bcast_S_S128 reducesTo_S128_S_d0 h_S_ (val_main_v34 (F := Ideal) pos raw bat) (val_main_v38 (F := Ideal) raw bat) := by
  unfold val_main_v43 val_main_v42 val_main_v41 val_main_v40 val_main_v39 val_main_cst_8 val_main_cst_9 val_main_cst_10 tail
  generalize val_main_v34 (F := Ideal) pos raw bat = a
  generalize val_main_v38 (F := Ideal) raw bat = b
  rfl

/-- The flat position e of a row of the edge array, read back through the reshape and the slice. -/
theorem idx_row0 (e : Fin 3200000) : idx_main_v0 (idx_main_v1 (ix1 e)) = ix2 0 e := by
  funext a; apply Fin.ext
  match a with
  | ⟨0, _⟩ => rfl
  | ⟨1, _⟩ => exact Nat.mod_eq_of_lt e.isLt

theorem idx_row1 (e : Fin 3200000) : idx_main_v9 (idx_main_v10 (ix1 e)) = ix2 1 e := by
  funext a; apply Fin.ext
  match a with
  | ⟨0, _⟩ => rfl
  | ⟨1, _⟩ => exact Nat.mod_eq_of_lt e.isLt

theorem idx_col (e : Fin 3200000) : idx_main_v7 (ix2 e 0) = ix1 e := by
  funext a; match a with | ⟨0, _⟩ => rfl

/-- Row 0 of the edge array, normalised: the source index word of edge e (lines 0 to 6). -/
theorem v6_at (e : Fin 3200000) : val_main_v6 (F := Ideal) raw (ix1 e) = normW (raw (ix2 0 e)) := by
  rw [val_main_v6_apply, val_main_v3_apply, val_main_v5_apply, val_main_v1_apply, val_main_v0_apply,
    val_main_v2_apply, val_main_v4_apply, val_main_c_apply, val_main_c_0_apply, idx_row0]
  rfl

/-- Row 1 of the edge array, normalised: the destination index word of edge e (lines 9 to 15). -/
theorem v15_at (e : Fin 3200000) : val_main_v15 (F := Ideal) raw (ix1 e) = normW (raw (ix2 1 e)) := by
  rw [val_main_v15_apply, val_main_v12_apply, val_main_v14_apply, val_main_v10_apply, val_main_v9_apply,
    val_main_v11_apply, val_main_v13_apply, val_main_c_1_apply, val_main_c_2_apply, idx_row1]
  rfl

/-- The source index word once more (lines 23 to 29). -/
theorem v29_at (e : Fin 3200000) : val_main_v29 (F := Ideal) raw (ix1 e) = normW (raw (ix2 0 e)) := by
  rw [val_main_v29_apply, val_main_v26_apply, val_main_v28_apply, val_main_v24_apply, val_main_v23_apply,
    val_main_v25_apply, val_main_v27_apply, val_main_c_3_apply, val_main_c_4_apply]
  exact (congrArg (fun j => normW (raw j)) (idx_row0 e) :)

/-- The three index columns the gathers read (lines 7, 16 and 30). -/
theorem v7_at (e : Fin 3200000) : val_main_v7 (F := Ideal) raw (ix2 e 0) = normW (raw (ix2 0 e)) := by
  rw [val_main_v7_apply, idx_col, v6_at]

theorem v16_at (e : Fin 3200000) : val_main_v16 (F := Ideal) raw (ix2 e 0) = normW (raw (ix2 1 e)) := by
  rw [val_main_v16_apply, show idx_main_v16 (ix2 e 0) = ix1 e from idx_col e, v15_at]

theorem v30_at (e : Fin 3200000) : val_main_v30 (F := Ideal) raw (ix2 e 0) = normW (raw (ix2 0 e)) := by
  rw [val_main_v30_apply, show idx_main_v30 (ix2 e 0) = ix1 e from idx_col e, v29_at]

/-- Line 8: the source row of the position table. -/
theorem v8_at (e : Fin 3200000) (c : Fin 2) :
    val_main_v8 (F := Ideal) pos raw (ix2 e c) = pos (ix2 (srcRow raw e) c) := by
  unfold val_main_v8
  rw [gather_rows_clamp (N := 100000) (C := 2) (E := 3200000) (by decide) gather_S100000x2_S3200000x1_S3200000x2_1_0_n_n_0_1_12
    rfl rfl rfl rfl rfl rfl rfl pos (val_main_v7 (F := Ideal) raw) e c]
  refine congrArg (fun r => pos (ix2 r c)) (Fin.ext ?_)
  exact congrArg (fun w : BitVec 32 => min w.toInt.toNat 99999) (v7_at raw e)

/-- Line 17: the destination row of the position table. -/
theorem v17_at (e : Fin 3200000) (c : Fin 2) :
    val_main_v17 (F := Ideal) pos raw (ix2 e c) = pos (ix2 (dstRow raw e) c) := by
  unfold val_main_v17
  rw [gather_rows_clamp (N := 100000) (C := 2) (E := 3200000) (by decide) gather_S100000x2_S3200000x1_S3200000x2_1_0_n_n_0_1_12
    rfl rfl rfl rfl rfl rfl rfl pos (val_main_v16 (F := Ideal) raw) e c]
  refine congrArg (fun r => pos (ix2 r c)) (Fin.ext ?_)
  exact congrArg (fun w : BitVec 32 => min w.toInt.toNat 99999) (v16_at raw e)

/-- Line 31: the batch word of the source row. -/
theorem v31_at (e : Fin 3200000) : val_main_v31 (F := Ideal) raw bat (ix1 e) = gid raw bat e := by
  unfold val_main_v31
  rw [gather_vec_clamp (N := 100000) (E := 3200000) (by decide) gather_S100000_S3200000x1_S3200000_n_0_n_n_0_1_1
    rfl rfl rfl rfl rfl rfl rfl bat (val_main_v30 (F := Ideal) raw) e]
  refine congrArg (fun r => bat (ix1 r)) (Fin.ext ?_)
  exact congrArg (fun w : BitVec 32 => min w.toInt.toNat 99999) (v30_at raw e)

end Stages

section Stages2
variable (pos : S100000x2.Idx → EReal) (raw : S2x3200000.Idx → BitVec 32) (bat : S100000.Idx → BitVec 32)

/-- Line 18 at column 0 and column 1: the displacement of edge e. -/
theorem v18_at0 (e : Fin 3200000) : val_main_v18 (F := Ideal) pos raw (ix2 e 0) = dX pos raw e := by
  rw [val_main_v18_apply, v17_at, v8_at]; rfl

theorem v18_at1 (e : Fin 3200000) : val_main_v18 (F := Ideal) pos raw (ix2 e 1) = dY pos raw e := by
  rw [val_main_v18_apply, v17_at, v8_at]; rfl

theorem idx_sum (e : Fin 3200000) (k : Fin 2) : idx_main_call0_v1 (ix1 e) k = ix2 e k := by
  funext a; match a with | ⟨0, _⟩ => rfl | ⟨1, _⟩ => rfl

/-- Line 22: the weight of edge e. -/
theorem v22_at (e : Fin 3200000) :
    val_main_v22 (F := Ideal) pos raw (ix1 e) = edgeVar (dX pos raw e) (dY pos raw e) := by
  have h : val_main_v21 (F := Ideal) pos raw (ix1 e)
      = Ideal.sqrt (dX pos raw e * dX pos raw e + dY pos raw e * dY pos raw e) - one32 := by
    rw [val_main_v21_apply, val_main_v19_apply, val_main_call0_v1_apply, Fin.sum_univ_two,
      val_main_call0_v0_apply, val_main_call0_v0_apply, idx_sum, idx_sum, v18_at0, v18_at1,
      val_main_call0_cst_apply, val_main_v20_apply, val_main_cst_apply]
    simp only [Ideal.ofBits_def, Ideal.ofBits_zero_f32, zero_add, Ideal.hostUnary_sqrt_def, Ideal.subf_def, Ideal.mulf_def]
    rfl
  rw [val_main_v22_apply, h]; rfl

theorem idx_col33 (e : Fin 3200000) : idx_main_v33 (ix2 e 0) = ix1 e := by
  funext a; match a with | ⟨0, _⟩ => rfl

/-- Line 34: graph n's sum of edge weights. -/
theorem v34_at (n : Fin 128) : val_main_v34 (F := Ideal) pos raw bat (ix1 n) = sums pos raw bat n := by
  unfold val_main_v34
  rw [scatterAdd_vec_apply (N := 128) (E := 3200000) scatter_S128_S3200000x1_S3200000_n_0_0_1 rfl rfl rfl rfl
    (val_main_v32 (F := Ideal)) (val_main_v33 (F := Ideal) raw bat) (val_main_v22 (F := Ideal) pos raw) n,
    val_main_v32_apply, val_main_cst_5_apply]
  simp only [Ideal.ofBits_def, Ideal.ofBits_zero_f32, zero_add]
  unfold sums
  refine Finset.sum_congr rfl fun e _ => ?_
  rw [val_main_v33_apply, idx_col33, v31_at, v22_at]

/-- Line 38: graph n's number of edges. -/
theorem v38_at (n : Fin 128) : val_main_v38 (F := Ideal) raw bat (ix1 n) = cnts raw bat n := by
  unfold val_main_v38
  rw [scatterAdd_vec_apply (N := 128) (E := 3200000) scatter_S128_S3200000x1_S3200000_n_0_0_1 rfl rfl rfl rfl
    (val_main_v36 (F := Ideal)) (val_main_v37 (F := Ideal) raw bat) (val_main_v35 (F := Ideal)) n,
    val_main_v36_apply, val_main_cst_7_apply]
  simp only [Ideal.ofBits_def, Ideal.ofBits_zero_f32, zero_add]
  unfold cnts
  refine Finset.sum_congr rfl fun e _ => ?_
  rw [val_main_v37_apply, show idx_main_v37 (ix2 e 0) = ix1 e from idx_col33 e, v31_at, val_main_v35_apply,
    val_main_cst_6_apply]
  rfl

end Stages2

/-- The reference's result is the closing lines applied to the specification's sums and counts. -/
theorem ref_result (m : (ℓ : Loc nD τ sig) → Buf (Elt Ideal) ℓ) (c : Dev nD) :
    (Cert.ReferenceIdeal.Value.res_main_v43 (F := Ideal) m c : S0.Idx → EReal)
      = tail bcast_S_S128 reducesTo_S128_S_d0 h_S_
          (fun g => sums (m ((c.tc : Thread nD τ).loc main_arg0)) (m ((c.tc : Thread nD τ).loc main_arg1)) (m ((c.tc : Thread nD τ).loc main_arg2)) (g 0))
          (fun g => cnts (m ((c.tc : Thread nD τ).loc main_arg1)) (m ((c.tc : Thread nD τ).loc main_arg2)) (g 0)) := by
  refine (val_main_v43_eq (F := Ideal) m c).trans ?_
  refine (v43_tail _ _ _).trans ?_
  refine congrArg₂ (tail bcast_S_S128 reducesTo_S128_S_d0 h_S_) (funext fun g => ?_) (funext fun g => ?_)
  · obtain ⟨n, rfl⟩ : ∃ n : Fin 128, g = ix1 n := ⟨g 0, ValueIdx.eq_ix1 g⟩
    exact v34_at _ _ _ n
  · obtain ⟨n, rfl⟩ : ∃ n : Fin 128, g = ix1 n := ⟨g 0, ValueIdx.eq_ix1 g⟩
    exact v38_at _ _ n

end Cert.ReferenceIdeal.Val

end
-- ==== Proof.lean ====
/-
  Equivalence over the extended reals of the packed-edge scatter-mean kernel and its reference.

  Both programs compute, for the 3200000 edges of a graph batch, the mean over 128 graphs of
  (sum of (|end - start| - 1)^2 over the graph's edges) / max(number of the graph's edges, 1).
  The reference gathers the endpoints, squares, and scatter-adds by the source node's graph word.  The kernel's host
  lines gather a position table widened by the graph word (as a float), stack displacement x, displacement y and the
  graph word into one 3 x 3200000 array, and a pipelined kernel over a 2 x 25 grid multiplies, chunk by chunk, the
  stacked rows (weights; ones) against the 0/1 matrix "edge's graph word = g", accumulating into a per-core slab; host
  lines add the two slabs and finish as the reference does.
  At the exact instance a product with a 0/1 word keeps or drops its other factor, sums of extended reals may be
  regrouped freely, the int -> float -> int trip of a 32-bit word is the identity, and both gathers clamp the same
  index word to the same row: the two results are the same closing lines applied to the same graph sums and counts.
  The frames: the argument arrays are staged by no window and written by no host line; the body's run at a grid
  point either resets the slab buffer (second grid coordinate zero) or adds to what the point before left.
-/
import proofs.«414884_j32220844654986_3_alg».proof.Defs
import proofs.«414884_j32220844654986_3_alg».proof.Proof.Gen.Kernel
import proofs.«414884_j32220844654986_3_alg».proof.Proof.Gen.KernelIdeal
import proofs.«414884_j32220844654986_3_alg».proof.Proof.Gen.ReferenceIdeal
import proofs.«414884_j32220844654986_3_alg».proof.Proof.Gen.Pre_finite_inputs
import proofs.«414884_j32220844654986_3_alg».proof.Proof.K.Frame
import proofs.«414884_j32220844654986_3_alg».proof.Proof.KI.Frame
import proofs.«414884_j32220844654986_3_alg».proof.Proof.KV.Result
import proofs.«414884_j32220844654986_3_alg».proof.Proof.RV.Ref
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the closing lines of the same graph sums and counts of arguments that agree. -/
theorem algebraic : Cert.algebraic_KernelIdeal_ReferenceIdeal := by
  intro m ρ m' ρ' _ hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Val.ref_result m' c, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
